-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S5000 : Shape := ⟨1, ![5000]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S5000 : S_.BroadcastsInDim S5000 (![] : Fin 0 → Fin S5000.rank)
  reducesTo_S5000_S_d0 : S5000.ReducesTo [0] S_

variable [Facts]

def fn_part2 {F : FTy → Type} [FloatOps F] (main_v27 : IVec S_ 1) (main_v32 : IVec S5000 1) (main_c_12 : IVec S_ 1) : IVec S_ 1 :=
  let main_v33 : IVec S_ 1 := (fun x v => Host.reduce IntOp.andi x v reducesTo_S5000_S_d0 h_S_) main_v32 main_c_12
  let main_v34 : IVec S_ 1 := andi main_v27 main_v33
  main_v34

def fn_part1 {F : FTy → Type} [FloatOps F] (main_arg3 : IVec S5000 32) (main_arg4 : IVec S5000 32) (main_arg5 : IVec S5000 32) (main_v13 : IVec S_ 1) (main_v15 : IVec S5000 1) (main_c_5 : IVec S_ 32) : IVec S_ 1 :=
  let main_v16 : IVec S5000 32 := broadcastInDim S5000 ![] bcast_S_S5000 main_c_5
  let main_v17 : IVec S5000 1 := cmpi .slt main_arg3 main_v16
  let main_v18 : IVec S5000 1 := andi main_v15 main_v17
  let main_c_6 : IVec S_ 1 := constantI S_ 1 1#1
  let main_v19 : IVec S_ 1 := (fun x v => Host.reduce IntOp.andi x v reducesTo_S5000_S_d0 h_S_) main_v18 main_c_6
  let main_v20 : IVec S_ 1 := andi main_v13 main_v19
  let main_c_7 : IVec S_ 32 := constantI S_ 32 0#32
  let main_v21 : IVec S5000 32 := broadcastInDim S5000 ![] bcast_S_S5000 main_c_7
  let main_v22 : IVec S5000 1 := cmpi .sge main_arg4 main_v21
  let main_c_8 : IVec S_ 32 := constantI S_ 32 512#32
  let main_v23 : IVec S5000 32 := broadcastInDim S5000 ![] bcast_S_S5000 main_c_8
  let main_v24 : IVec S5000 1 := cmpi .slt main_arg4 main_v23
  let main_v25 : IVec S5000 1 := andi main_v22 main_v24
  let main_c_9 : IVec S_ 1 := constantI S_ 1 1#1
  let main_v26 : IVec S_ 1 := (fun x v => Host.reduce IntOp.andi x v reducesTo_S5000_S_d0 h_S_) main_v25 main_c_9
  let main_v27 : IVec S_ 1 := andi main_v20 main_v26
  let main_c_10 : IVec S_ 32 := constantI S_ 32 0#32
  let main_v28 : IVec S5000 32 := broadcastInDim S5000 ![] bcast_S_S5000 main_c_10
  let main_v29 : IVec S5000 1 := cmpi .sge main_arg5 main_v28
  let main_c_11 : IVec S_ 32 := constantI S_ 32 512#32
  let main_v30 : IVec S5000 32 := broadcastInDim S5000 ![] bcast_S_S5000 main_c_11
  let main_v31 : IVec S5000 1 := cmpi .slt main_arg5 main_v30
  let main_v32 : IVec S5000 1 := andi main_v29 main_v31
  let main_c_12 : IVec S_ 1 := constantI S_ 1 1#1
  fn_part2 (F := F) main_v27 main_v32 main_c_12

def fn {F : FTy → Type} [FloatOps F] (main_arg0 : FVec F S20000x512 .f32) (main_arg1 : FVec F S20000x512 .f32) (main_arg2 : FVec F S5000 .f32) (main_arg3 : IVec S5000 32) (main_arg4 : IVec S5000 32) (main_arg5 : IVec S5000 32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S20000x512 .f32 := Host.absf main_arg1
  let main_cst_0 : FVec F S_ .f32 := constant S_ .f32 0x7F800000#32
  let main_v5 : FVec F S20000x512 .f32 := broadcastInDim S20000x512 ![] bcast_S_S20000x512 main_cst_0
  let main_v6 : IVec S20000x512 1 := cmpf .olt main_v4 main_v5
  let main_c_1 : IVec S_ 1 := constantI S_ 1 1#1
  let main_v7 : IVec S_ 1 := (fun x v => Host.reduce IntOp.andi x v reducesTo_S20000x512_S_d0_1 h_S_) main_v6 main_c_1
  let main_v8 : IVec S_ 1 := andi main_v3 main_v7
  let main_v9 : FVec F S5000 .f32 := Host.absf main_arg2
  let main_cst_2 : FVec F S_ .f32 := constant S_ .f32 0x7F800000#32
  let main_v10 : FVec F S5000 .f32 := broadcastInDim S5000 ![] bcast_S_S5000 main_cst_2
  let main_v11 : IVec S5000 1 := cmpf .olt main_v9 main_v10
  let main_c_3 : IVec S_ 1 := constantI S_ 1 1#1
  let main_v12 : IVec S_ 1 := (fun x v => Host.reduce IntOp.andi x v reducesTo_S5000_S_d0 h_S_) main_v11 main_c_3
  let main_v13 : IVec S_ 1 := andi main_v8 main_v12
  let main_c_4 : IVec S_ 32 := constantI S_ 32 0#32
  let main_v14 : IVec S5000 32 := broadcastInDim S5000 ![] bcast_S_S5000 main_c_4
  let main_v15 : IVec S5000 1 := cmpi .sge main_arg3 main_v14
  let main_c_5 : IVec S_ 32 := constantI S_ 32 512#32
  fn_part1 (F := F) main_arg3 main_arg4 main_arg5 main_v13 main_v15 main_c_5
-- ==== Kernel.lean ====
abbrev S20000x512 : Shape := ⟨2, ![20000, 512]⟩
abbrev S5000 : Shape := ⟨1, ![5000]⟩
abbrev S_ : Shape := ⟨0, ![]⟩
abbrev S5120 : Shape := ⟨1, ![5120]⟩
abbrev S512 : Shape := ⟨1, ![512]⟩
abbrev S512x1 : Shape := ⟨2, ![512, 1]⟩
abbrev S1x5120 : Shape := ⟨2, ![1, 5120]⟩
abbrev S512x5120 : Shape := ⟨2, ![512, 5120]⟩
abbrev S5120x1 : Shape := ⟨2, ![5120, 1]⟩
abbrev S1x512 : Shape := ⟨2, ![1, 512]⟩
abbrev S5120x512 : Shape := ⟨2, ![5120, 512]⟩
abbrev S512x512 : Shape := ⟨2, ![512, 512]⟩
abbrev S512x640 : Shape := ⟨2, ![512, 640]⟩
abbrev S640x512 : Shape := ⟨2, ![640, 512]⟩

abbrev nBuf : Space → Nat
  | .hbm => 42
  | .vmem => 9
  | .smem => 0
  | _ => 0

abbrev bufTy : (tb : Table) → Fin (tcTables nBuf tb) → BufTy
  | .hbm, ⟨0, _⟩ => ⟨S20000x512, .f32⟩
  | .hbm, ⟨1, _⟩ => ⟨S20000x512, .f32⟩
  | .hbm, ⟨2, _⟩ => ⟨S5000, .f32⟩
  | .hbm, ⟨3, _⟩ => ⟨S5000, .i32⟩
  | .hbm, ⟨4, _⟩ => ⟨S5000, .i32⟩
  | .hbm, ⟨5, _⟩ => ⟨S5000, .i32⟩
  | .hbm, ⟨6, _⟩ => ⟨S_, .i32⟩
  | .hbm, ⟨7, _⟩ => ⟨S_, .i32⟩
  | .hbm, ⟨8, _⟩ => ⟨S5120, .i32⟩
  | .hbm, ⟨9, _⟩ => ⟨S_, .i32⟩
  | .hbm, ⟨10, _⟩ => ⟨S_, .i32⟩
  | .hbm, ⟨11, _⟩ => ⟨S5120, .i32⟩
  | .hbm, ⟨12, _⟩ => ⟨S_, .i32⟩
  | .hbm, ⟨13, _⟩ => ⟨S_, .i32⟩
  | .hbm, ⟨14, _⟩ => ⟨S5120, .i32⟩
  | .hbm, ⟨15, _⟩ => ⟨S_, .f32⟩
  | .hbm, ⟨16, _⟩ => ⟨S_, .f32⟩
  | .hbm, ⟨17, _⟩ => ⟨S5120, .f32⟩
  | .hbm, ⟨18, _⟩ => ⟨S512, .i32⟩
  | .hbm, ⟨19, _⟩ => ⟨S512x1, .i32⟩
  | .hbm, ⟨20, _⟩ => ⟨S1x5120, .i32⟩
  | .hbm, ⟨21, _⟩ => ⟨S512x5120, .i32⟩
  | .hbm, ⟨22, _⟩ => ⟨S512x5120, .i32⟩
  | .hbm, ⟨23, _⟩ => ⟨S512x5120, .i1⟩
  | .hbm, ⟨24, _⟩ => ⟨S512x5120, .bf16⟩
  | .hbm, ⟨25, _⟩ => ⟨S512x1, .i32⟩
  | .hbm, ⟨26, _⟩ => ⟨S1x5120, .i32⟩
  | .hbm, ⟨27, _⟩ => ⟨S512x5120, .i32⟩
  | .hbm, ⟨28, _⟩ => ⟨S512x5120, .i32⟩
  | .hbm, ⟨29, _⟩ => ⟨S512x5120, .i1⟩
  | .hbm, ⟨30, _⟩ => ⟨S512x5120, .bf16⟩
  | .hbm, ⟨31, _⟩ => ⟨S5120x1, .i32⟩
  | .hbm, ⟨32, _⟩ => ⟨S1x512, .i32⟩
  | .hbm, ⟨33, _⟩ => ⟨S5120x512, .i32⟩
  | .hbm, ⟨34, _⟩ => ⟨S5120x512, .i32⟩
  | .hbm, ⟨35, _⟩ => ⟨S5120x512, .i1⟩
  | .hbm, ⟨36, _⟩ => ⟨S5120x512, .f32⟩
  | .hbm, ⟨37, _⟩ => ⟨S5120x1, .f32⟩
  | .hbm, ⟨38, _⟩ => ⟨S5120x512, .f32⟩
  | .hbm, ⟨39, _⟩ => ⟨S5120x512, .f32⟩
  | .hbm, ⟨40, _⟩ => ⟨S5120x512, .bf16⟩
  | .hbm, ⟨41, _⟩ => ⟨S20000x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x5120, .bf16⟩
  | .local _ .vmem, ⟨5, _⟩ => ⟨S512x5120, .bf16⟩
  | .local _ .vmem, ⟨6, _⟩ => ⟨S5120x512, .bf16⟩
  | .local _ .vmem, ⟨7, _⟩ => ⟨S512x512, .f32⟩
  | .local _ .vmem, ⟨8, _⟩ => ⟨S512x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_cst : Ref sig .tc := ⟨.hbm, 15, rfl⟩
abbrev main_call3_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![40], ![false]⟩

def k0_mult1 : BitVec 32 :=
  let c0_i32 : BitVec 32 := 0#32
  let c640_i32 : BitVec 32 := 640#32
  let v5 : BitVec 32 := Scalar.muli c0_i32 c640_i32
  v5
def k0_off1 (c0_i32 : BitVec 32) : Fin 2 → Nat :=
  let c0_3 : Index := 0#32
  let c640_i32 : BitVec 32 := 640#32
  let v5 : BitVec 32 := Scalar.muli c0_i32 c640_i32
  let v6 : BitVec 32 := v5
  let v7 : Index := Scalar.indexCast v6
  ![0, v7.toNat]
def k0_off2 (c0_i32 : BitVec 32) : Fin 2 → Nat :=
  let c640_i32 : BitVec 32 := 640#32
  let v5 : BitVec 32 := Scalar.muli c0_i32 c640_i32
  let v6 : BitVec 32 := v5
  let v13 : Index := Scalar.indexCast v6
  let c0_5 : Index := 0#32
  ![v13.toNat, 0]
def k0_mult2 : BitVec 32 :=
  let c1_i32 : BitVec 32 := 1#32
  let c640_i32_9 : BitVec 32 := 640#32
  let v22 : BitVec 32 := Scalar.muli c1_i32 c640_i32_9
  v22
def k0_mult3 : BitVec 32 :=
  let c2_i32 : BitVec 32 := 2#32
  let c640_i32_16 : BitVec 32 := 640#32
  let v39 : BitVec 32 := Scalar.muli c2_i32 c640_i32_16
  v39
def k0_mult4 : BitVec 32 :=
  let c3_i32 : BitVec 32 := 3#32
  let c640_i32_23 : BitVec 32 := 640#32
  let v56 : BitVec 32 := Scalar.muli c3_i32 c640_i32_23
  v56
def k0_mult5 : BitVec 32 :=
  let c4_i32 : BitVec 32 := 4#32
  let c640_i32_30 : BitVec 32 := 640#32
  let v73 : BitVec 32 := Scalar.muli c4_i32 c640_i32_30
  v73
def k0_mult6 : BitVec 32 :=
  let c5_i32 : BitVec 32 := 5#32
  let c640_i32_37 : BitVec 32 := 640#32
  let v90 : BitVec 32 := Scalar.muli c5_i32 c640_i32_37
  v90
def k0_mult7 : BitVec 32 :=
  let c6_i32 : BitVec 32 := 6#32
  let c640_i32_44 : BitVec 32 := 640#32
  let v107 : BitVec 32 := Scalar.muli c6_i32 c640_i32_44
  v107
def k0_mult8 : BitVec 32 :=
  let c7_i32 : BitVec 32 := 7#32
  let c640_i32_51 : BitVec 32 := 640#32
  let v124 : BitVec 32 := Scalar.muli c7_i32 c640_i32_51
  v124
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5120x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S5000_S5120_01200 : S5000.Pads (![0] : Fin 1 → Nat) ![120] ![0] S5120
  h_S_ : 0 < S_.numel
  bcast_S512_S512x1_0 : S512.BroadcastsInDim S512x1 (![0] : Fin 1 → Fin S512x1.rank)
  bcast_S5120_S1x5120_1 : S5120.BroadcastsInDim S1x5120 (![1] : Fin 1 → Fin S1x5120.rank)
  bcast_S512x1_S512x5120_0_1 : S512x1.BroadcastsInDim S512x5120 (![0, 1] : Fin 2 → Fin S512x5120.rank)
  bcast_S1x5120_S512x5120_0_1 : S1x5120.BroadcastsInDim S512x5120 (![0, 1] : Fin 2 → Fin S512x5120.rank)
  bcast_S5120_S5120x1_0 : S5120.BroadcastsInDim S5120x1 (![0] : Fin 1 → Fin S5120x1.rank)
  bcast_S512_S1x512_1 : S512.BroadcastsInDim S1x512 (![1] : Fin 1 → Fin S1x512.rank)
  bcast_S5120x1_S5120x512_0_1 : S5120x1.BroadcastsInDim S5120x512 (![0, 1] : Fin 2 → Fin S5120x512.rank)
  bcast_S1x512_S5120x512_0_1 : S1x512.BroadcastsInDim S5120x512 (![0, 1] : Fin 2 → Fin S5120x512.rank)
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  h_S512x640 : 0 < S512x640.numel
  shapeCasts_S512x640_S512x640 : S512x640.ShapeCasts S512x640
  h_S640x512 : 0 < S640x512.numel
  shapeCasts_S640x512_S640x512 : S640x512.ShapeCasts S640x512
  dot_S512x512_S512x640_S512x640_1_0_0_1_n_n_wf : DotDims.WF S512x512 S512x640 S512x640 [1] [0] [0] [1] [] []
  dot_S512x640_S640x512_S512x512_1_0_0_1_n_n_wf : DotDims.WF S512x640 S640x512 S512x512 [1] [0] [0] [1] [] []
  hrank0 : 0 < grid0.rank
  k0_mult1_dvd : 640 ∣ k0_mult1.toNat
  k0_off1_inb : ∀ (r : Fin 8), ∀ a, (k0_off1 (BitVec.ofNat 32 r.val)) a + S512x640.size a ≤ S512x5120.size a
  k0_off2_inb : ∀ (r : Fin 8), ∀ a, (k0_off2 (BitVec.ofNat 32 r.val)) a + S640x512.size a ≤ S5120x512.size a
  k0_mult2_dvd : 640 ∣ k0_mult2.toNat
  k0_mult3_dvd : 640 ∣ k0_mult3.toNat
  k0_mult4_dvd : 640 ∣ k0_mult4.toNat
  k0_mult5_dvd : 640 ∣ k0_mult5.toNat
  k0_mult6_dvd : 640 ∣ k0_mult6.toNat
  k0_mult7_dvd : 640 ∣ k0_mult7.toNat
  k0_mult8_dvd : 640 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x512.size a < S20000x512.size a
  hwx0_0 : ∀ i : grid0.Coords, EltTy.bits .f32 = 32 ∨ (Rect.unit (s := S20000x512) (fun a => cc0_transform_0 i a * S512x512.size a) (fun a => (Pipeline.Clip.of (cc0_transform_0 i a) (S512x512.size a) (S20000x512.size a)).extent (S512x512.size a)) fun a => Pipeline.Clip.inb (Pipeline.Clip.ok_of (hstart0_0 i a))).WholeWords (EltTy.packing .f32)
  hwxs0_0 : ∀ i : grid0.Coords, EltTy.bits .f32 = 32 ∨ (Rect.unit (s := S512x512) (fun _ => 0) (fun a => (Pipeline.Clip.of (cc0_transform_0 i a) (S512x512.size a) (S20000x512.size a)).extent (S512x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x512.size a < S20000x512.size a
  hwx0_1 : ∀ i : grid0.Coords, EltTy.bits .f32 = 32 ∨ (Rect.unit (s := S20000x512) (fun a => cc0_transform_1 i a * S512x512.size a) (fun a => (Pipeline.Clip.of (cc0_transform_1 i a) (S512x512.size a) (S20000x512.size a)).extent (S512x512.size a)) fun a => Pipeline.Clip.inb (Pipeline.Clip.ok_of (hstart0_1 i a))).WholeWords (EltTy.packing .f32)
  hwxs0_1 : ∀ i : grid0.Coords, EltTy.bits .f32 = 32 ∨ (Rect.unit (s := S512x512) (fun _ => 0) (fun a => (Pipeline.Clip.of (cc0_transform_1 i a) (S512x512.size a) (S20000x512.size a)).extent (S512x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x5120.size a ≤ S512x5120.size a
  hwx0_2 : ∀ i : grid0.Coords, EltTy.bits .bf16 = 32 ∨ (Rect.block (s := S512x5120) S512x5120.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x5120.size a ≤ S512x5120.size a
  hwx0_3 : ∀ i : grid0.Coords, EltTy.bits .bf16 = 32 ∨ (Rect.block (s := S512x5120) S512x5120.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5120x512.size a ≤ S5120x512.size a
  hwx0_4 : ∀ i : grid0.Coords, EltTy.bits .bf16 = 32 ∨ (Rect.block (s := S5120x512) S5120x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S512x512.size a < S20000x512.size a
  hwx0_5 : ∀ i : grid0.Coords, EltTy.bits .f32 = 32 ∨ (Rect.unit (s := S20000x512) (fun a => cc0_transform_5 i a * S512x512.size a) (fun a => (Pipeline.Clip.of (cc0_transform_5 i a) (S512x512.size a) (S20000x512.size a)).extent (S512x512.size a)) fun a => Pipeline.Clip.inb (Pipeline.Clip.ok_of (hstart0_5 i a))).WholeWords (EltTy.packing .f32)
  hwxs0_5 : ∀ i : grid0.Coords, EltTy.bits .f32 = 32 ∨ (Rect.unit (s := S512x512) (fun _ => 0) (fun a => (Pipeline.Clip.of (cc0_transform_5 i a) (S512x512.size a) (S20000x512.size a)).extent (S512x512.size a)) fun a => (Nat.zero_add _).trans_le (Pipeline.Clip.extent_le (Pipeline.Clip.ok_of (hstart0_5 i a)))).WholeWords (EltTy.packing .f32)

variable [Facts₀]

def dot_S512x512_S512x640_S512x640_1_0_0_1_n_n : DotDims S512x512 S512x640 S512x640 where
  lhsContracting := [1]
  rhsContracting := [0]
  lhsNonContracting := [0]
  rhsNonContracting := [1]
  lhsBatch := []
  rhsBatch := []
  wf := dot_S512x512_S512x640_S512x640_1_0_0_1_n_n_wf
def dot_S512x640_S640x512_S512x512_1_0_0_1_n_n : DotDims S512x640 S640x512 S512x512 where
  lhsContracting := [1]
  rhsContracting := [0]
  lhsNonContracting := [0]
  rhsNonContracting := [1]
  lhsBatch := []
  rhsBatch := []
  wf := dot_S512x640_S640x512_S512x512_1_0_0_1_n_n_wf

abbrev win0_0 : Pipeline.Window sig grid0 :=
  Pipeline.Window.ofSpecClip (Memref.whole main_arg0) S512x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S512x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v10) S512x5120.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x5120.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S5120x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v27) S512x512.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S20000x512 : Shape := ⟨2, ![20000, 512]⟩
abbrev S5000 : Shape := ⟨1, ![5000]⟩
abbrev S_ : Shape := ⟨0, ![]⟩
abbrev S5000x1 : Shape := ⟨2, ![5000, 1]⟩
abbrev S20000x5000 : Shape := ⟨2, ![20000, 5000]⟩
abbrev S1x5000 : Shape := ⟨2, ![1, 5000]⟩

abbrev nBuf : Space → Nat
  | .hbm => 39
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S20000x512, .f32⟩
  | .hbm, ⟨2, _⟩ => ⟨S5000, .f32⟩
  | .hbm, ⟨3, _⟩ => ⟨S5000, .i32⟩
  | .hbm, ⟨4, _⟩ => ⟨S5000, .i32⟩
  | .hbm, ⟨5, _⟩ => ⟨S5000, .i32⟩
  | .hbm, ⟨6, _⟩ => ⟨S_, .i32⟩
  | .hbm, ⟨7, _⟩ => ⟨S5000, .i32⟩
  | .hbm, ⟨8, _⟩ => ⟨S5000, .i1⟩
  | .hbm, ⟨9, _⟩ => ⟨S_, .i32⟩
  | .hbm, ⟨10, _⟩ => ⟨S5000, .i32⟩
  | .hbm, ⟨11, _⟩ => ⟨S5000, .i32⟩
  | .hbm, ⟨12, _⟩ => ⟨S5000, .i32⟩
  | .hbm, ⟨13, _⟩ => ⟨S5000x1, .i32⟩
  | .hbm, ⟨14, _⟩ => ⟨S20000x5000, .f32⟩
  | .hbm, ⟨15, _⟩ => ⟨S_, .i32⟩
  | .hbm, ⟨16, _⟩ => ⟨S5000, .i32⟩
  | .hbm, ⟨17, _⟩ => ⟨S5000, .i1⟩
  | .hbm, ⟨18, _⟩ => ⟨S_, .i32⟩
  | .hbm, ⟨19, _⟩ => ⟨S5000, .i32⟩
  | .hbm, ⟨20, _⟩ => ⟨S5000, .i32⟩
  | .hbm, ⟨21, _⟩ => ⟨S5000, .i32⟩
  | .hbm, ⟨22, _⟩ => ⟨S5000x1, .i32⟩
  | .hbm, ⟨23, _⟩ => ⟨S20000x5000, .f32⟩
  | .hbm, ⟨24, _⟩ => ⟨S20000x5000, .f32⟩
  | .hbm, ⟨25, _⟩ => ⟨S1x5000, .f32⟩
  | .hbm, ⟨26, _⟩ => ⟨S20000x5000, .f32⟩
  | .hbm, ⟨27, _⟩ => ⟨S20000x5000, .f32⟩
  | .hbm, ⟨28, _⟩ => ⟨S_, .f32⟩
  | .hbm, ⟨29, _⟩ => ⟨S20000x512, .f32⟩
  | .hbm, ⟨30, _⟩ => ⟨S_, .i32⟩
  | .hbm, ⟨31, _⟩ => ⟨S5000, .i32⟩
  | .hbm, ⟨32, _⟩ => ⟨S5000, .i1⟩
  | .hbm, ⟨33, _⟩ => ⟨S_, .i32⟩
  | .hbm, ⟨34, _⟩ => ⟨S5000, .i32⟩
  | .hbm, ⟨35, _⟩ => ⟨S5000, .i32⟩
  | .hbm, ⟨36, _⟩ => ⟨S5000, .i32⟩
  | .hbm, ⟨37, _⟩ => ⟨S5000x1, .i32⟩
  | .hbm, ⟨38, _⟩ => ⟨S20000x512, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S_S5000 : S_.BroadcastsInDim S5000 (![] : Fin 0 → Fin S5000.rank)
  bcast_S5000_S5000x1_0 : S5000.BroadcastsInDim S5000x1 (![0] : Fin 1 → Fin S5000x1.rank)
  bcast_S5000_S1x5000_1 : S5000.BroadcastsInDim S1x5000 (![1] : Fin 1 → Fin S1x5000.rank)
  bcast_S1x5000_S20000x5000_0_1 : S1x5000.BroadcastsInDim S20000x5000 (![0, 1] : Fin 2 → Fin S20000x5000.rank)
  bcast_S_S20000x512 : S_.BroadcastsInDim S20000x512 (![] : Fin 0 → Fin S20000x512.rank)
  gather_S20000x512_S5000x1_S20000x5000_0_1_n_n_1_1_200001_wf : GatherDims.WF S20000x512 S5000x1 S20000x5000 [0] [1] [] [1] [] 1 ![20000, 1]
  scatter_S20000x512_S5000x1_S20000x5000_0_1_1_1_wf : ScatterDims.WF S20000x512 S5000x1 S20000x5000 [0] [1] [1] 1

variable [Facts₀]

def gather_S20000x512_S5000x1_S20000x5000_0_1_n_n_1_1_200001 : GatherDims S20000x512 S5000x1 S20000x5000 where
  offsetDims := [0]
  collapsedSliceDims := [1]
  operandBatchingDims := []
  startIndicesBatchingDims := []
  startIndexMap := [1]
  indexVectorDim := 1
  sliceSizes := ![20000, 1]
  wf := gather_S20000x512_S5000x1_S20000x5000_0_1_n_n_1_1_200001_wf
def scatter_S20000x512_S5000x1_S20000x5000_0_1_1_1 : ScatterDims S20000x512 S5000x1 S20000x5000 where
  updateWindowDims := [0]
  insertedWindowDims := [1]
  scatterDimsToOperandDims := [1]
  indexVectorDim := 1
  wf := scatter_S20000x512_S5000x1_S20000x5000_0_1_1_1_wf

class Facts : Prop extends Facts₀ where

variable [Facts]
-- ==== Proof.BodyDefBits.lean ====
/-
  What one grid point's body leaves in the result's staging buffer, as a pure function of what the five input staging
  buffers hold: the two data tiles (512 rows of x and of y), the two gather selectors and the scatter selector.
  The body reads the data tiles whole and, chunk by chunk, a 640-column slice of each gather selector and the
  matching 640-row slice of the scatter selector, and stores the accumulated tile.  This is the body's own arithmetic
  (the generated payloads) applied to those loads, in program order.
-/
import proofs.«420083_j7232724927034_3_alg».proof.Proof.Gen.Kernel.Skeleton
import Idealize.ShloMosaic.Lib.Pipeline.FrameBody

noncomputable section

namespace Cert.Kernel.Body

open Cert.Kernel Cert.Kernel.Gen Idealize.ShloMosaic

variable {F : FTy → Type} [FloatOps F]

/-- Chunk r's 640 columns of a gather selector held in a staging buffer. -/
abbrev ldG (Y : Vec F S512x5120 .bf16) (r : Fin 8) : Vec F S512x640 .bf16 :=
  View.ld Y (Rect.unit (s := S512x5120) (k0_off1 (BitVec.ofNat 32 r.val)) S512x640.size (Facts₀.k0_off1_inb r))

/-- Chunk r's 640 rows of the scatter selector held in a staging buffer. -/
abbrev ldS (Y : Vec F S5120x512 .bf16) (r : Fin 8) : Vec F S640x512 .bf16 :=
  View.ld Y (Rect.unit (s := S5120x512) (k0_off2 (BitVec.ofNat 32 r.val)) S640x512.size (Facts₀.k0_off2_inb r))

/-- The tile the body stores: the eight chunks' products accumulated, from the five buffers' contents. -/
def bodyOut (X0 X1 : Vec F S512x512 .f32) (Y2 Y3 : Vec F S512x5120 .bf16) (Y4 : Vec F S5120x512 .bf16) : FVec F S512x512 .f32 :=
  let v1 := k0_pay2 X0
  let v3 := k0_pay3 X1
  let v21 := k0_pay4 X0 X1 (ldG Y2 0) (ldG Y3 0) (ldS Y4 0)
  let v37 := k0_pay5 X0 X1 (ldG Y2 1) (ldG Y3 1) (ldS Y4 1)
  let v72 := k0_pay6 v1 v3 v21 v37 (ldG Y2 2) (ldG Y3 2) (ldS Y4 2) (ldG Y2 3) (ldG Y3 3) (ldS Y4 3)
  let v77 := k0_pay7 (ldG Y2 4)
  let v106 := k0_pay8 v1 v3 v72 v77 (ldG Y3 4) (ldS Y4 4) (ldG Y2 5) (ldG Y3 5) (ldS Y4 5)
  let v114 := k0_pay9 (ldG Y3 6)
  let v117 := k0_pay10 (ldS Y4 6)
  let v118 := k0_pay11 v1 (ldG Y2 6)
  k0_pay1 v1 v3 v106 v114 v117 v118 (constant S512x640 .f32 0x00000000#32) (ldG Y2 7) (ldG Y3 7) (ldS Y4 7)

end Cert.Kernel.Body

end
-- ==== Proof.BodyBits.lean ====
/-
  The kernel body and the frame of the word-level kernel program.

  The body on its six staging buffers — two whole loads of the data tiles, per chunk a slice of each selector, the dead
  load of the result's buffer and the whole store — leaves the five inputs as they were and the result's buffer at
  `bodyOut` of them.  The frame claim says nothing of the result, so the pipeline's proof data forgets the result's
  window: the body is handed that buffer at anything and hands it back at anything.  The data tiles' last block overhangs
  the 20000-row arrays; the obligation for those windows speaks of the rows inside the array only.
-/
import proofs.«420083_j7232724927034_3_alg».proof.Proof.BodyDefBits
import proofs.«420083_j7232724927034_3_alg».proof.Proof.Gen.Kernel.Frame
import Idealize.ShloMosaic.Lib.Pipeline.Value

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

/-- The kernel's variants: none. -/
abbrev 𝒱₀ : Variants := Variants.none

/-- The whole-buffer rectangle's offsets are zero. -/
theorem off0 : (![0, 0] : Fin 2 → ℕ) = fun _ => 0 := funext fun a => by fin_cases a <;> rfl

/-- One store through the whole-buffer rectangle covers every index. -/
theorem cover_whole (w : Vec F S512x512 .f32) (y : S512x512.Idx) :
    ∃ pc ∈ ([⟨Rect.unit ![0, 0] S512x512.size Facts₀.inb_S512x512_S512x512_0_0, w⟩] : List (View.Piece (Elt F) S512x512 .f32)), y ∈ pc.1.set :=
  ⟨_, List.mem_singleton_self _, View.mem_set_unit_zero off0 Facts₀.inb_S512x512_S512x512_0_0 y⟩
theorem sound_kernel (c : Dev nD) (i : grid0.Coords)
    (arg1 : Memref sig .tc .vmem S512x512 .f32) (harg1 : arg1.IsWhole) (arg2 : Memref sig .tc .vmem S512x512 .f32) (harg2 : arg2.IsWhole)
    (arg3 : Memref sig .tc .vmem S512x5120 .bf16) (harg3 : arg3.IsWhole) (arg4 : Memref sig .tc .vmem S512x5120 .bf16) (harg4 : arg4.IsWhole)
    (arg5 : Memref sig .tc .vmem S5120x512 .bf16) (harg5 : arg5.IsWhole) (arg6 : Memref sig .tc .vmem S512x512 .f32) (harg6 : arg6.IsWhole)
    (X0 X1 : Vec F S512x512 .f32) (Y2 Y3 : Vec F S512x5120 .bf16) (Y4 : Vec F S5120x512 .bf16) (K : PUnit → sProp 𝕄) :
    iprop(owns (c : Thread nD τ) arg1 fullShare X0 ∗ owns (c : Thread nD τ) arg2 fullShare X1 ∗ owns (c : Thread nD τ) arg3 fullShare Y2
        ∗ owns (c : Thread nD τ) arg4 fullShare Y3 ∗ owns (c : Thread nD τ) arg5 fullShare Y4 ∗ (∃ d, owns (c : Thread nD τ) arg6 fullShare d)
        ∗ (iprop(owns (c : Thread nD τ) arg1 fullShare X0 ∗ owns (c : Thread nD τ) arg2 fullShare X1 ∗ owns (c : Thread nD τ) arg3 fullShare Y2
            ∗ owns (c : Thread nD τ) arg4 fullShare Y3 ∗ owns (c : Thread nD τ) arg5 fullShare Y4
            ∗ owns (c : Thread nD τ) arg6 fullShare (bodyOut X0 X1 Y2 Y3 Y4)) -∗ K ⟨⟩))
      ⊢ wp frame (wpE (defs₀ (F := F)) 𝒱₀ c none) Set.univ (cc0__kernel i arg1 harg1 arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_whole _), View.canon_unit_zero off0]
  sl_unfold_words
  simp only [View.readAt_eq_ld, View.ld_unit_zero (S := S512x512) off0]
  rfl

/-! ## The pipeline's proof data -/

variable (m : (ℓ : Loc nD τ sig) → Buf (Elt F) ℓ) (ρ : Dev nD → PrngReg)

/-- The filler past the arrays' end: the zero word. -/
def zfill : S512x512.Idx → Elt F .f32 := fun _ => Scalar.ofBits .f32 0#32

/-- The 512-row tiles of x and of y at point t: the rows inside the array, filled out with zeros past its end. -/
def xtile (c : Dev nD) (t : Fin cfg0.N) : Vec F S512x512 .f32 := win0_0.fill (grid0.coords t) zfill (iblk m c 0 t)
def ytile (c : Dev nD) (t : Fin cfg0.N) : Vec F S512x512 .f32 := win0_1.fill (grid0.coords t) zfill (iblk m c 1 t)

/-- The proof data: the arrays as the region finds them; after the body the data tiles as fetched and the selectors
    whole. The result window is FORGOTTEN below (the frame says nothing of the result), so what is written for it here
    is never read. -/
def dats (_ : Fin 1) (c : Dev nD) : Dat τ (Elt F) Unit ℕ (UR sig nD τ) ℕ cfg0 c where
  A w := V m c (Pipeline.arrRef spec0 w)
  after w t := match w with
    | ⟨0, _⟩ => xtile m c t
    | ⟨1, _⟩ => ytile m c t
    | ⟨2, _⟩ => iblk m c 2 t
    | ⟨3, _⟩ => iblk m c 3 t
    | ⟨4, _⟩ => iblk m c 4 t
    | ⟨5, _⟩ => zfill
  Φ _ := ΦA spec0 c
  q _ := fullShare
  owed _ := 0

/-- The windows the frame forgets: the result's. -/
abbrev fgt : Fin cfg0.W → Bool := fun | ⟨5, _⟩ => true | _ => false

theorem A_eq (c : Dev nD) (w : Fin cfg0.W) : (dats m 0 c).A w = V m c (Pipeline.arrRef spec0 w) := rfl

theorem after0_0 (c : Dev nD) (t : Fin cfg0.N) : (dats m 0 c).after 0 t = xtile m c t := by dsimp only [dats]
theorem after0_1 (c : Dev nD) (t : Fin cfg0.N) : (dats m 0 c).after 1 t = ytile m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, the result's window forgotten -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

/-- The body at any point: the five input buffers come back as they were, the result's holds something. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, H5⟩⟩
  iapply (sound_kernel (F := F) c (grid0.coords t) _ _ _ _ _ _ _ _ _ _ _ _
    (win0_0.fill (grid0.coords t) d0 (iblk m c 0 t)) (win0_1.fill (grid0.coords t) d1 (iblk m c 1 t))
    (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [show win0_0.cut (grid0.coords t) (xtile m c t) = iblk m c 0 t from win0_0.cut_fill _ _ _]
    iexact H0
  isplitl [H1]
  · iexists d1
    rw [show win0_1.cut (grid0.coords t) (ytile m c t) = iblk m c 1 t from win0_1.cut_fill _ _ _]
    iexact H1
  isplitl [H2]; · iexact H2
  isplitl [H3]; · iexact H3
  isplitl [H4]; · iexact H4
  iexists _; iexact H5

/-- The library's body obligation with the result's window forgotten, at every point. -/
theorem body_obligation (c : Dev nD) :
    BodyObligationLoose (dats (F := F) m 0 c) (defs₀ (F := F)) 𝒱₀ () Set.univ fgt := fun t => by
  rw [bigSep_W0, bigSep_W0]
  exact sound_body m c t

/-! ## The run and the frame -/

set_option backward.isDefEq.respectTransparency.types false in
/-- The frame run of the relational proof data (the exact data with the result's window forgotten): every weakly fair
    execution of @main terminates; every input array ends at its entry contents and every other unscoped buffer as the
    region found it. -/
theorem run_main : θ_run defs (onTc (τ := τ) (main (F := F))) (s₀ m ρ)
    (Pipeline.RDat.FramePost cfg0 (fun c => (dats m 0 c).toRForget fgt) (V m)) :=
  Pipeline.RDat.θ_run_frame cfgs (0 : Fin 1) launch0 defs₀ 𝒱₀ (fun c => (dats m 0 c).toRForget fgt) m ρ main
    (hbody := fun c => (body_obligation m c).toRForget) (hshare := fun c w => (dats m 0 c).share_full (fun _ => rfl) w)
    (howed := fun _ _ => rfl) (V := V m) (hmain := hmain m 𝒱₀) (hA := fun _ _ => rfl) (hΦ := fun _ _ => rfl)

/-- THE FRAME: the program runs to the end, faults nowhere and leaves its six argument arrays unchanged — the two data
    arrays as inputs of the pipeline, the other four as buffers the region never names. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans (V_main_arg0 m c),
      (Pipeline.RDat.FramePost.arr_in h c 1 rfl).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.Kernel.Body

end
-- ==== Proof.BodyDefIdeal.lean ====
/-
  What one grid point's body leaves in the result's staging buffer, as a pure function of what the five input staging
  buffers hold: the two data tiles (512 rows of x and of y), the two gather selectors and the scatter selector.
  The body reads the data tiles whole and, chunk by chunk, a 640-column slice of each gather selector and the
  matching 640-row slice of the scatter selector, and stores the accumulated tile.  This is the body's own arithmetic
  (the generated payloads) applied to those loads, in program order.
-/
import proofs.«420083_j7232724927034_3_alg».proof.Proof.Gen.KernelIdeal.Skeleton
import Idealize.ShloMosaic.Lib.Pipeline.FrameBody

noncomputable section

namespace Cert.KernelIdeal.Body

open Cert.KernelIdeal Cert.KernelIdeal.Gen Idealize.ShloMosaic

variable {F : FTy → Type} [FloatOps F]

/-- Chunk r's 640 columns of a gather selector held in a staging buffer. -/
abbrev ldG (Y : Vec F S512x5120 .bf16) (r : Fin 8) : Vec F S512x640 .bf16 :=
  View.ld Y (Rect.unit (s := S512x5120) (k0_off1 (BitVec.ofNat 32 r.val)) S512x640.size (Facts₀.k0_off1_inb r))

/-- Chunk r's 640 rows of the scatter selector held in a staging buffer. -/
abbrev ldS (Y : Vec F S5120x512 .bf16) (r : Fin 8) : Vec F S640x512 .bf16 :=
  View.ld Y (Rect.unit (s := S5120x512) (k0_off2 (BitVec.ofNat 32 r.val)) S640x512.size (Facts₀.k0_off2_inb r))

/-- The tile the body stores: the eight chunks' products accumulated, from the five buffers' contents. -/
def bodyOut (X0 X1 : Vec F S512x512 .f32) (Y2 Y3 : Vec F S512x5120 .bf16) (Y4 : Vec F S5120x512 .bf16) : FVec F S512x512 .f32 :=
  let v1 := k0_pay2 X0
  let v3 := k0_pay3 X1
  let v21 := k0_pay4 X0 X1 (ldG Y2 0) (ldG Y3 0) (ldS Y4 0)
  let v37 := k0_pay5 X0 X1 (ldG Y2 1) (ldG Y3 1) (ldS Y4 1)
  let v72 := k0_pay6 v1 v3 v21 v37 (ldG Y2 2) (ldG Y3 2) (ldS Y4 2) (ldG Y2 3) (ldG Y3 3) (ldS Y4 3)
  let v77 := k0_pay7 (ldG Y2 4)
  let v106 := k0_pay8 v1 v3 v72 v77 (ldG Y3 4) (ldS Y4 4) (ldG Y2 5) (ldG Y3 5) (ldS Y4 5)
  let v114 := k0_pay9 (ldG Y3 6)
  let v117 := k0_pay10 (ldS Y4 6)
  let v118 := k0_pay11 v1 (ldG Y2 6)
  k0_pay1 v1 v3 v106 v114 v117 v118 (constant S512x640 .f32 0x00000000#32) (ldG Y2 7) (ldG Y3 7) (ldS Y4 7)

end Cert.KernelIdeal.Body

end
-- ==== Proof.Spec.lean ====
/-
  What both programs compute, as one function of the six argument arrays.

  out[b, k] = the sum over the 5000 paths i with M[i] = k of x[b, M1[i]] * y[b, M2[i]] * scale[i].

  The reference gathers the two columns, multiplies by the coefficient and scatter-adds over the feature axis.
  The kernel builds three selector matrices on the host — g1[d, i] = 1 if d = M1[i], g2 likewise for M2, and
  s[i, k] = (1 if M[i] = k) * scale[i], each padded with zero columns (rows) from 5000 to 5120 paths — and per row b
  adds up, over eight chunks of 640 paths, (x[b, :] · g1[:, i]) * (y[b, :] · g2[:, i]) * s[i, k].
  A dot product with a column holding a single one picks one entry, a zero entry of s drops the path, and the eight
  chunks together with the padded tail are the 5000 paths once each: only 0 * a = 0, 1 * a = a, 0 + a = a and the
  commutative-monoid laws of addition on the extended reals are used, so nothing needs to be finite.
-/
import Idealize.ShloMosaic.Lib.ValueIdx
import Idealize.ShloMosaic.PureOps.Ideal

noncomputable section

namespace Cert.Spec

open Idealize.ShloMosaic Idealize.ShloMosaic.ValueIdx

/-- The shapes of the data arrays, the per-path arrays and the three selector matrices. -/
abbrev SX : Shape := ⟨2, ![20000, 512]⟩
abbrev SV : Shape := ⟨1, ![5000]⟩
abbrev SG : Shape := ⟨2, ![512, 5120]⟩
abbrev SS : Shape := ⟨2, ![5120, 512]⟩

/-- The feature column an index word names (the word read as a natural number; in range it is below 512). -/
def col (w : BitVec 32) : Fin 512 := ⟨w.toNat % 512, Nat.mod_lt _ (by decide)⟩

/-- Every index word of a per-path array names a feature column: as a signed number it lies in [0, 512). -/
def InRange (M : SV.Idx → BitVec 32) : Prop :=
  ∀ i : Fin 5000, 0 ≤ (M (ix1 i)).toInt ∧ (M (ix1 i)).toInt < 512

/-- Path i's contribution to row b: x[b, M1[i]] * y[b, M2[i]] * scale[i]. -/
def term (x y : SX.Idx → EReal) (scale : SV.Idx → EReal) (M1 M2 : SV.Idx → BitVec 32) (b : Fin 20000) (i : Fin 5000) : EReal :=
  x (ix2 b (col (M1 (ix1 i)))) * y (ix2 b (col (M2 (ix1 i)))) * scale (ix1 i)

/-- The result: entry (b, k) adds the contributions of the paths whose output index is k. -/
def G (x y : SX.Idx → EReal) (scale : SV.Idx → EReal) (M M1 M2 : SV.Idx → BitVec 32) : SX.Idx → EReal := fun p =>
  ∑ i : Fin 5000, if (col (M (ix1 i))).val = (p 1).val then term x y scale M1 M2 (p 0) i else 0

/-- One if the two words are equal, zero otherwise. -/
def onehot (a b : BitVec 32) : EReal := if a = b then 1 else 0

/-- A gather selector: entry (d, i) is one when path i (below 5000) reads feature d, zero otherwise and on the padding. -/
def selG (M1 : SV.Idx → BitVec 32) : SG.Idx → EReal := fun q =>
  if h : (q 1).val < 5000 then onehot (BitVec.ofNat 32 (q 0).val) (M1 (ix1 ⟨(q 1).val, h⟩)) else 0

/-- The scatter selector with the coefficient folded in: entry (i, k) is scale[i] when path i (below 5000) writes
    feature k, zero otherwise and on the padding. -/
def selS (M : SV.Idx → BitVec 32) (scale : SV.Idx → EReal) : SS.Idx → EReal := fun q =>
  if h : (q 0).val < 5000 then onehot (M (ix1 ⟨(q 0).val, h⟩)) (BitVec.ofNat 32 (q 1).val) * scale (ix1 ⟨(q 0).val, h⟩) else 0

/-- Path number 640 * c + j of the padded range. -/
def ci (c : Fin 8) (j : Fin 640) : Fin 5120 := ⟨640 * c.val + j.val, by have := c.isLt; have := j.isLt; omega⟩

/-- One chunk's contribution to entry (r, k) of a 512-row tile with rows xr, yr: the sum over the chunk's 640 paths of
    (xr · g1 column) * (yr · g2 column) * s entry. -/
def chunk (xr yr : Fin 512 → EReal) (g1 g2 : SG.Idx → EReal) (s : SS.Idx → EReal) (k : Fin 512) (c : Fin 8) : EReal :=
  ∑ j : Fin 640, ((∑ d : Fin 512, xr d * g1 (ix2 d (ci c j))) * (∑ d : Fin 512, yr d * g2 (ix2 d (ci c j))))
    * s (ix2 (ci c j) k)

/-- The kernel's accumulation for one row: zero, then the eight chunks added in order. -/
def rowAcc (xr yr : Fin 512 → EReal) (g1 g2 : SG.Idx → EReal) (s : SS.Idx → EReal) (k : Fin 512) : EReal :=
  (((((((0 + chunk xr yr g1 g2 s k 0) + chunk xr yr g1 g2 s k 1) + chunk xr yr g1 g2 s k 2) + chunk xr yr g1 g2 s k 3)
    + chunk xr yr g1 g2 s k 4) + chunk xr yr g1 g2 s k 5) + chunk xr yr g1 g2 s k 6) + chunk xr yr g1 g2 s k 7

end Cert.Spec

end
-- ==== Proof.PayValue.lean ====
/-
  The kernel body's arithmetic read at one entry of the tile it stores, at the extended reals.

  For row r of the 512-row tile and output column k the body adds up, from zero and in order, eight chunk values;
  chunk c's value is the sum over its 640 paths j of
      (sum over d of x[r, d] * g1[d, 640 c + j]) * (sum over d of y[r, d] * g2[d, 640 c + j]) * s[640 c + j, k].
  Each of the three products of a chunk is a plain matrix product into a zero accumulator, so at an entry it is the sum
  over the contracted coordinate of the products of the entries; the format changes between the products and the shape
  casts of the loaded slices to their own shape are the identity on the values; a slice loaded at column (row) offset
  640 c reads the selector at column (row) 640 c + j.  Nothing here needs a value to be finite.
-/
import proofs.«420083_j7232724927034_3_alg».proof.Proof.BodyDefIdeal
import proofs.«420083_j7232724927034_3_alg».proof.Proof.Spec
import Idealize.ShloMosaic.Lib.ValueIdx
import Idealize.ShloMosaic.Lib.Pipeline.Value
import Idealize.ShloMosaic.PureOps.Ideal.Laws

noncomputable section

namespace Cert.KernelIdeal.PayValue

open Cert.KernelIdeal Cert.KernelIdeal.Gen Cert.KernelIdeal.Body Idealize.ShloMosaic Idealize.ShloMosaic.ValueIdx

/-- The dimension numbers of a plain M×K by K×N product: contract the left operand's axis 1 with the right operand's
    axis 0, keep the left's axis 0 and the right's axis 1 (the well-formedness evidence is whatever the record carries). -/
abbrev plainDims {M K N : Nat} (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The left operand's index at result entry (r, c) and contraction position d is (r, d). -/
theorem plainDims_lhsIdx {M K N : Nat} (w : DotDims.WF ⟨2, ![M, K]⟩ ⟨2, ![K, N]⟩ ⟨2, ![M, N]⟩ [1] [0] [0] [1] [] [])
    (r : Fin M) (c : Fin N) (d : Fin K) :
    (plainDims w).lhsIdx (ix2 r c) ((contrEquiv1 (plainDims w) K rfl rfl).symm d) = ix2 r d := by
  have cv := contrEquiv1_symm_val (plainDims w) K rfl rfl d
  funext ax; apply Fin.ext
  match ax with
  | ⟨0, _⟩ => simp [DotDims.lhsIdx]; rfl
  | ⟨1, _⟩ => exact ((plainDims w).lhsIdx_val_of_single (cl := 1) rfl _ _).trans cv

/-- The right operand's index at result entry (r, c) and contraction position d is (d, c). -/
theorem plainDims_rhsIdx {M K N : Nat} (w : DotDims.WF ⟨2, ![M, K]⟩ ⟨2, ![K, N]⟩ ⟨2, ![M, N]⟩ [1] [0] [0] [1] [] [])
    (r : Fin M) (c : Fin N) (d : Fin K) :
    (plainDims w).rhsIdx (ix2 r c) ((contrEquiv1 (plainDims w) K rfl rfl).symm d) = ix2 d c := by
  have cv := contrEquiv1_symm_val (plainDims w) K rfl rfl d
  funext ax; apply Fin.ext
  match ax with
  | ⟨0, _⟩ => exact ((plainDims w).rhsIdx_val_of_single (cr := 0) rfl _ _).trans cv
  | ⟨1, _⟩ => simp [DotDims.rhsIdx]; rfl

/-- A plain M×K by K×N block product into the zero accumulator, read at entry (r, c): the sum over the contracted
    coordinate of the products of the entries. -/
theorem matmul_plain_zero_apply {M K N : Nat} {φ₁ φ₂ : FTy} (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂) (r : Fin M) (c : Fin N) :
    matmul (F := Ideal) (plainDims w) none A B (constant (F := Ideal) ⟨2, ![M, N]⟩ .f32 0x00000000#32) (ix2 r c)
      = ∑ d : Fin K, A (ix2 r d) * B (ix2 d c) := by
  show FloatOps.matmul _ none A B (constant (F := Ideal) ⟨2, ![M, N]⟩ .f32 0x00000000#32) (ix2 r c) = _
  rw [Ideal.matmul_constant_zero_apply, ← Equiv.sum_comp (contrEquiv1 (plainDims w) K rfl rfl).symm]
  refine Finset.sum_congr rfl fun d _ => ?_
  rw [plainDims_lhsIdx, plainDims_rhsIdx]

/-- The first product of a chunk, the 512×512 data tile by a 512×640 gather selector, into the zero accumulator. -/
theorem mmG_apply (a : FVec Ideal S512x512 .bf16) (g : FVec Ideal S512x640 .bf16) (r : Fin 512) (j : Fin 640) :
    matmul (F := Ideal) dot_S512x512_S512x640_S512x640_1_0_0_1_n_n none a g (constant (F := Ideal) S512x640 .f32 0x00000000#32) (ix2 r j)
      = ∑ d : Fin 512, a (ix2 r d) * g (ix2 d j) :=
  matmul_plain_zero_apply Facts₀.dot_S512x512_S512x640_S512x640_1_0_0_1_n_n_wf a g r j

/-- The second product of a chunk, a 512×640 tile by the 640×512 scatter selector, into the zero accumulator. -/
theorem mmS_apply (p : FVec Ideal S512x640 .bf16) (s : FVec Ideal S640x512 .bf16) (r k : Fin 512) :
    matmul (F := Ideal) dot_S512x640_S640x512_S512x512_1_0_0_1_n_n none p s (constant (F := Ideal) S512x512 .f32 0x00000000#32) (ix2 r k)
      = ∑ j : Fin 640, p (ix2 r j) * s (ix2 j k) :=
  matmul_plain_zero_apply Facts₀.dot_S512x640_S640x512_S512x512_1_0_0_1_n_n_wf p s r k

/-- One chunk's value at column k from the tile's two rows and the chunk's three selector slices: the sum over the
    chunk's 640 paths of (xr · g1 column) * (yr · g2 column) * s entry. -/
def ch (xr yr : Fin 512 → EReal) (g1 g2 : S512x640.Idx → EReal) (s : S640x512.Idx → EReal) (k : Fin 512) : EReal :=
  ∑ j : Fin 640, ((∑ d : Fin 512, xr d * g1 (ix2 d j)) * (∑ d : Fin 512, yr d * g2 (ix2 d j))) * s (ix2 j k)

/-- A chunk's three products read at entry (r, k): the format change of the middle tile is the identity at the
    extended reals and each product into the zero accumulator is its sum. -/
theorem chunk_apply (a b : FVec Ideal S512x512 .bf16) (g1 g2 : FVec Ideal S512x640 .bf16) (s : FVec Ideal S640x512 .bf16)
    (r k : Fin 512) :
    matmul (F := Ideal) dot_S512x640_S640x512_S512x512_1_0_0_1_n_n none
        (truncf .bf16
          (mulf (matmul (F := Ideal) dot_S512x512_S512x640_S512x640_1_0_0_1_n_n none a g1 (constant (F := Ideal) S512x640 .f32 0x00000000#32))
                (matmul (F := Ideal) dot_S512x512_S512x640_S512x640_1_0_0_1_n_n none b g2 (constant (F := Ideal) S512x640 .f32 0x00000000#32)))
          bitsLt_bf16_f32)
        s (constant (F := Ideal) S512x512 .f32 0x00000000#32) (ix2 r k)
      = ch (fun d => a (ix2 r d)) (fun d => b (ix2 r d)) g1 g2 s k := by
  refine (mmS_apply _ s r k).trans ?_
  refine Finset.sum_congr rfl fun j _ => ?_
  rw [truncf_apply, mulf_apply, mmG_apply, mmG_apply]

/-- Chunk c's slice of a gather selector at (d, j) is the selector at column 640 * c + j. -/
theorem ldG_apply (Y : Vec Ideal S512x5120 .bf16) (c : Fin 8) (d : Fin 512) (j : Fin 640) :
    ldG (F := Ideal) Y c (ix2 d j) = Y (ix2 d (Cert.Spec.ci c j)) := by
  show Y _ = Y _
  congr 1
  funext ax; apply Fin.ext
  show (k0_off1 (BitVec.ofNat 32 c.val)) ax + 1 * ((ix2 d j) ax).val = _
  rw [k0_off1_eq c]
  match ax with
  | ⟨0, _⟩ => simp
  | ⟨1, _⟩ => simp [Cert.Spec.ci]

/-- Chunk c's slice of the scatter selector at (j, k) is the selector at row 640 * c + j. -/
theorem ldS_apply (Y : Vec Ideal S5120x512 .bf16) (c : Fin 8) (j : Fin 640) (k : Fin 512) :
    ldS (F := Ideal) Y c (ix2 j k) = Y (ix2 (Cert.Spec.ci c j) k) := by
  show Y _ = Y _
  congr 1
  funext ax; apply Fin.ext
  show (k0_off2 (BitVec.ofNat 32 c.val)) ax + 1 * ((ix2 j k) ax).val = _
  rw [k0_off2_eq c]
  match ax with
  | ⟨0, _⟩ => simp [Cert.Spec.ci]
  | ⟨1, _⟩ => simp

/-- A chunk's value over the loaded slices is the specification's chunk over the whole selectors. -/
theorem ch_ld (xr yr : Fin 512 → EReal) (Y2 Y3 : Vec Ideal S512x5120 .bf16) (Y4 : Vec Ideal S5120x512 .bf16) (k : Fin 512) (c : Fin 8) :
    ch xr yr (ldG (F := Ideal) Y2 c) (ldG (F := Ideal) Y3 c) (ldS (F := Ideal) Y4 c) k = Cert.Spec.chunk xr yr Y2 Y3 Y4 k c := by
  unfold ch Cert.Spec.chunk
  refine Finset.sum_congr rfl fun j _ => ?_
  rw [ldS_apply]
  congr 2
  · exact Finset.sum_congr rfl fun d _ => by rw [ldG_apply]
  · exact Finset.sum_congr rfl fun d _ => by rw [ldG_apply]

/-! ## The payloads at an entry

Each payload is a few chunks added onto a running tile; the format changes of the data tiles and the shape casts to the
same shape are the identity. -/

/-- The data tile's format change reads the tile. -/
theorem pay2_apply (X : Vec Ideal S512x512 .f32) (i : S512x512.Idx) : k0_pay2 (F := Ideal) X i = X i := rfl
theorem pay3_apply (X : Vec Ideal S512x512 .f32) (i : S512x512.Idx) : k0_pay3 (F := Ideal) X i = X i := rfl

/-- A shape cast of a loaded slice to its own shape is the slice. -/
theorem pay7_eq (v : Vec Ideal S512x640 .bf16) : k0_pay7 (F := Ideal) v = v := shapeCast_self v _
theorem pay9_eq (v : Vec Ideal S512x640 .bf16) : k0_pay9 (F := Ideal) v = v := shapeCast_self v _
theorem pay10_eq (v : Vec Ideal S640x512 .bf16) : k0_pay10 (F := Ideal) v = v := shapeCast_self v _

/-- Chunk 6's first product, computed ahead of its use. -/
theorem pay11_eq (v1 : FVec Ideal S512x512 .bf16) (v : FVec Ideal S512x640 .bf16) :
    k0_pay11 (F := Ideal) v1 v
      = matmul (F := Ideal) dot_S512x512_S512x640_S512x640_1_0_0_1_n_n none v1 v (constant (F := Ideal) S512x640 .f32 0x00000000#32) := by
  simp only [k0_pay11, shapeCast_self]

/-- Chunk 0 onto the zero tile. -/
theorem pay4_apply (X0 X1 : Vec Ideal S512x512 .f32) (g1 g2 : Vec Ideal S512x640 .bf16) (s : Vec Ideal S640x512 .bf16) (r k : Fin 512) :
    k0_pay4 (F := Ideal) X0 X1 g1 g2 s (ix2 r k)
      = 0 + ch (fun d => X0 (ix2 r d)) (fun d => X1 (ix2 r d)) g1 g2 s k := by
  simp only [k0_pay4, shapeCast_self]
  rw [addf_apply, chunk_apply]
  congr 1
  exact Ideal.ofBits_zero_f32

/-- Chunk 1 alone. -/
theorem pay5_apply (X0 X1 : Vec Ideal S512x512 .f32) (g1 g2 : Vec Ideal S512x640 .bf16) (s : Vec Ideal S640x512 .bf16) (r k : Fin 512) :
    k0_pay5 (F := Ideal) X0 X1 g1 g2 s (ix2 r k)
      = ch (fun d => X0 (ix2 r d)) (fun d => X1 (ix2 r d)) g1 g2 s k := by
  simp only [k0_pay5, shapeCast_self]
  exact chunk_apply _ _ g1 g2 s r k

/-- Chunks 2 and 3 onto the sum of the first two tiles. -/
theorem pay6_apply (v1 v3 : FVec Ideal S512x512 .bf16) (v21 v37 : FVec Ideal S512x512 .f32)
    (a1 a2 : Vec Ideal S512x640 .bf16) (a3 : Vec Ideal S640x512 .bf16) (b1 b2 : Vec Ideal S512x640 .bf16) (b3 : Vec Ideal S640x512 .bf16)
    (r k : Fin 512) :
    k0_pay6 (F := Ideal) v1 v3 v21 v37 a1 a2 a3 b1 b2 b3 (ix2 r k)
      = ((v21 (ix2 r k) + v37 (ix2 r k)) + ch (fun d => v1 (ix2 r d)) (fun d => v3 (ix2 r d)) a1 a2 a3 k)
          + ch (fun d => v1 (ix2 r d)) (fun d => v3 (ix2 r d)) b1 b2 b3 k := by
  simp only [k0_pay6, shapeCast_self]
  rw [addf_apply, addf_apply, addf_apply, chunk_apply, chunk_apply]

/-- Chunks 4 and 5 onto the running tile. -/
theorem pay8_apply (v1 v3 : FVec Ideal S512x512 .bf16) (v72 : FVec Ideal S512x512 .f32) (a1 : FVec Ideal S512x640 .bf16)
    (a2 : Vec Ideal S512x640 .bf16) (a3 : Vec Ideal S640x512 .bf16) (b1 b2 : Vec Ideal S512x640 .bf16) (b3 : Vec Ideal S640x512 .bf16)
    (r k : Fin 512) :
    k0_pay8 (F := Ideal) v1 v3 v72 a1 a2 a3 b1 b2 b3 (ix2 r k)
      = (v72 (ix2 r k) + ch (fun d => v1 (ix2 r d)) (fun d => v3 (ix2 r d)) a1 a2 a3 k)
          + ch (fun d => v1 (ix2 r d)) (fun d => v3 (ix2 r d)) b1 b2 b3 k := by
  simp only [k0_pay8, shapeCast_self]
  rw [addf_apply, addf_apply, chunk_apply, chunk_apply]

/-- Chunks 6 and 7 onto the running tile, chunk 6's first product and its two other slices arriving ready. -/
theorem pay1_apply (v1 v3 : FVec Ideal S512x512 .bf16) (v106 : FVec Ideal S512x512 .f32) (a1 a2 : FVec Ideal S512x640 .bf16)
    (a3 : FVec Ideal S640x512 .bf16) (b1 b2 : Vec Ideal S512x640 .bf16) (b3 : Vec Ideal S640x512 .bf16) (r k : Fin 512) :
    k0_pay1 (F := Ideal) v1 v3 v106 a2 a3
        (matmul (F := Ideal) dot_S512x512_S512x640_S512x640_1_0_0_1_n_n none v1 a1 (constant (F := Ideal) S512x640 .f32 0x00000000#32))
        (constant (F := Ideal) S512x640 .f32 0x00000000#32) b1 b2 b3 (ix2 r k)
      = (v106 (ix2 r k) + ch (fun d => v1 (ix2 r d)) (fun d => v3 (ix2 r d)) a1 a2 a3 k)
          + ch (fun d => v1 (ix2 r d)) (fun d => v3 (ix2 r d)) b1 b2 b3 k := by
  simp only [k0_pay1, shapeCast_self]
  rw [addf_apply, addf_apply, chunk_apply, chunk_apply]

/-- The stored tile at entry (r, k): zero, then the eight chunks of row r added in order. -/
theorem bodyOut_apply (X0 X1 : Vec Ideal S512x512 .f32) (Y2 Y3 : Vec Ideal S512x5120 .bf16) (Y4 : Vec Ideal S5120x512 .bf16) (r k : Fin 512) :
    bodyOut (F := Ideal) X0 X1 Y2 Y3 Y4 (ix2 r k)
      = Cert.Spec.rowAcc (fun d => X0 (ix2 r d)) (fun d => X1 (ix2 r d)) Y2 Y3 Y4 k := by
  unfold bodyOut
  simp only [pay7_eq, pay9_eq, pay10_eq, pay11_eq]
  rw [pay1_apply, pay8_apply, pay6_apply, pay4_apply, pay5_apply]
  simp only [pay2_apply, pay3_apply, ch_ld]
  rfl

end Cert.KernelIdeal.PayValue

end
-- ==== Proof.HostValue.lean ====
/-
  What the three selector arrays hold when the kernel's region is entered.

  Before the region the program pads the three index arrays from 5000 to 5120 paths with the word -1 and the
  coefficients with the zero float, and builds
    g1[d, i] = (d = M1pad[i]),  g2[d, i] = (d = M2pad[i])   as floats, d the feature index 0 … 511,
    s[i, k]  = (Mpad[i] = k) * scalepad[i].
  Read at an index: a broadcast reads its operand at the coordinate it keeps, the pad reads the array below 5000
  and the padding value from 5000 on, the comparison's bit is one exactly when the two words are equal and the
  conversion to a float reads that bit as 1 or 0; the change of float format is the identity on extended reals.
  A feature index is below 512, so it never equals the word -1: a padded column of g1, g2 is zero. A padded row of
  s is (something) * 0 = 0. These are the selectors of the specification.
-/
import proofs.«420083_j7232724927034_3_alg».proof.Proof.Gen.KernelIdeal.Frame
import proofs.«420083_j7232724927034_3_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.HostValue

open Cert.KernelIdeal Cert.KernelIdeal.Gen Idealize.ShloMosaic Idealize.ShloMosaic.TcCoe
open Idealize.ShloMosaic.ValueIdx Idealize.ShloMosaic.StableHlo

/-- The feature-index column broadcast along the path axis: entry (d, i) is the word d. -/
theorem iota_rows_apply (h0 : S512.BroadcastsInDim S512x1 ![0]) (h1 : S512x1.BroadcastsInDim S512x5120 ![0, 1])
    (q : S512x5120.Idx) :
    broadcastInDim S512x5120 ![0, 1] h1 (broadcastInDim S512x1 ![0] h0 (iotaInDim S512 32 0)) q
      = BitVec.ofNat 32 (q 0).val := by
  refine (broadcastInDim_apply _ h1 _ q
    (fun a => match a with | ⟨0, _⟩ => ⟨(q 0).val, (q 0).isLt⟩ | ⟨1, _⟩ => ⟨0, Nat.one_pos⟩) ?_).trans ?_
  · intro a
    match a with
    | ⟨0, _⟩ => show (q 0).val = if (512 : Nat) = 1 then 0 else (q 0).val; rw [if_neg (by decide)]
    | ⟨1, _⟩ => show 0 = if (1 : Nat) = 1 then 0 else (q 1).val; rw [if_pos rfl]
  refine (broadcastInDim_apply _ h0 _ _
    (fun a => match a with | ⟨0, _⟩ => ⟨(q 0).val, (q 0).isLt⟩) ?_).trans ?_
  · intro a
    match a with
    | ⟨0, _⟩ => show (q 0).val = if (512 : Nat) = 1 then 0 else (q 0).val; rw [if_neg (by decide)]
  rfl

/-- A per-path row broadcast along the feature axis: entry (d, i) is the row's entry i. -/
theorem row_cols_apply {α : Type} (h0 : S5120.BroadcastsInDim S1x5120 ![1]) (h1 : S1x5120.BroadcastsInDim S512x5120 ![0, 1])
    (x : S5120.Idx → α) (q : S512x5120.Idx) :
    broadcastInDim S512x5120 ![0, 1] h1 (broadcastInDim S1x5120 ![1] h0 x) q = x (ix1 (q 1)) := by
  refine (broadcastInDim_apply _ h1 _ q
    (fun a => match a with | ⟨0, _⟩ => ⟨0, Nat.one_pos⟩ | ⟨1, _⟩ => ⟨(q 1).val, (q 1).isLt⟩) ?_).trans ?_
  · intro a
    match a with
    | ⟨0, _⟩ => show 0 = if (1 : Nat) = 1 then 0 else (q 0).val; rw [if_pos rfl]
    | ⟨1, _⟩ => show (q 1).val = if (5120 : Nat) = 1 then 0 else (q 1).val; rw [if_neg (by decide)]
  refine (broadcastInDim_apply _ h0 _ _ (ix1 (q 1)) ?_)
  intro a
  match a with
  | ⟨0, _⟩ => show (q 1).val = if (5120 : Nat) = 1 then 0 else (q 1).val; rw [if_neg (by decide)]

/-- A per-path column broadcast along the feature axis: entry (i, k) is the column's entry i. -/
theorem col_rows_apply {α : Type} (h0 : S5120.BroadcastsInDim S5120x1 ![0]) (h1 : S5120x1.BroadcastsInDim S5120x512 ![0, 1])
    (x : S5120.Idx → α) (q : S5120x512.Idx) :
    broadcastInDim S5120x512 ![0, 1] h1 (broadcastInDim S5120x1 ![0] h0 x) q = x (ix1 (q 0)) := by
  refine (broadcastInDim_apply _ h1 _ q
    (fun a => match a with | ⟨0, _⟩ => ⟨(q 0).val, (q 0).isLt⟩ | ⟨1, _⟩ => ⟨0, Nat.one_pos⟩) ?_).trans ?_
  · intro a
    match a with
    | ⟨0, _⟩ => show (q 0).val = if (5120 : Nat) = 1 then 0 else (q 0).val; rw [if_neg (by decide)]
    | ⟨1, _⟩ => show 0 = if (1 : Nat) = 1 then 0 else (q 1).val; rw [if_pos rfl]
  refine (broadcastInDim_apply _ h0 _ _ (ix1 (q 0)) ?_)
  intro a
  match a with
  | ⟨0, _⟩ => show (q 0).val = if (5120 : Nat) = 1 then 0 else (q 0).val; rw [if_neg (by decide)]

/-- The feature-index row broadcast along the path axis: entry (i, k) is the word k. -/
theorem iota_cols_apply (h0 : S512.BroadcastsInDim S1x512 ![1]) (h1 : S1x512.BroadcastsInDim S5120x512 ![0, 1])
    (q : S5120x512.Idx) :
    broadcastInDim S5120x512 ![0, 1] h1 (broadcastInDim S1x512 ![1] h0 (iotaInDim S512 32 0)) q
      = BitVec.ofNat 32 (q 1).val := by
  refine (broadcastInDim_apply _ h1 _ q
    (fun a => match a with | ⟨0, _⟩ => ⟨0, Nat.one_pos⟩ | ⟨1, _⟩ => ⟨(q 1).val, (q 1).isLt⟩) ?_).trans ?_
  · intro a
    match a with
    | ⟨0, _⟩ => show 0 = if (1 : Nat) = 1 then 0 else (q 0).val; rw [if_pos rfl]
    | ⟨1, _⟩ => show (q 1).val = if (512 : Nat) = 1 then 0 else (q 1).val; rw [if_neg (by decide)]
  refine (broadcastInDim_apply _ h0 _ _
    (fun a => match a with | ⟨0, _⟩ => ⟨(q 1).val, (q 1).isLt⟩) ?_).trans ?_
  · intro a
    match a with
    | ⟨0, _⟩ => show (q 1).val = if (512 : Nat) = 1 then 0 else (q 1).val; rw [if_neg (by decide)]
  rfl

/-- Padding 5000 paths to 5120 at the end: below 5000 the array's entry, from 5000 on the padding value. -/
theorem pad_apply {α : Type} (h : S5000.Pads (![0] : Fin 1 → Nat) ![120] ![0] S5120) (hu : 0 < S_.numel)
    (x : S5000.Idx → α) (v : S_.Idx → α) (j : S5120.Idx) :
    pad S5120 ![0] ![120] ![0] x v h hu j
      = if hj : (j 0).val < 5000 then x (ix1 ⟨(j 0).val, hj⟩) else v ix0 := by
  unfold pad
  by_cases hj : (j 0).val < 5000
  · rw [dif_pos hj, dif_pos]
    · congr 1
      funext a
      match a with
      | ⟨0, _⟩ => exact Fin.ext (show ((j 0).val - 0) / (0 + 1) = (j 0).val by simp)
    · intro a
      match a with
      | ⟨0, _⟩ =>
        show 0 ≤ (j 0).val ∧ ((j 0).val - 0) % (0 + 1) = 0 ∧ ((j 0).val - 0) / (0 + 1) < 5000
        exact ⟨Nat.zero_le _, Nat.mod_one _, by simpa using hj⟩
  · rw [dif_neg hj, dif_neg]
    · congr 1
      funext a; exact a.elim0
    · intro hin
      have h0 := (hin ⟨0, Nat.one_pos⟩).2.2
      have h0' : ((j 0).val - 0) / (0 + 1) < 5000 := h0
      exact hj (by simpa using h0')

/-- The comparison's bit read as an extended real: one when the two words are equal, zero otherwise. -/
theorem uitofp_cmpi_eq (φ : FTy) (a b : BitVec 32) :
    (FloatOps.uitofp (F := Ideal) φ (IntOp.cmpi .eq a b) : EReal) = Cert.Spec.onehot a b := by
  show (((BitVec.ofBool (a == b)).toNat : ℝ) : EReal) = if a = b then 1 else 0
  by_cases h : a = b
  · rw [if_pos h, beq_iff_eq.mpr h]; simp
  · rw [if_neg h, show (a == b) = false from beq_eq_false_iff_ne.mpr h]; simp

/-- A feature index (below 512) is never the padding word -1. -/
theorem ofNat_ne_pad {d : Nat} (hd : d < 512) : BitVec.ofNat 32 d ≠ 4294967295#32 := by
  intro h
  have := congrArg BitVec.toNat h
  simp [BitVec.toNat_ofNat] at this
  omega

/-- The pad at the path `i` of the padded range. -/
theorem pad_ix1 {α : Type} (h : S5000.Pads (![0] : Fin 1 → Nat) ![120] ![0] S5120) (hu : 0 < S_.numel)
    (x : S5000.Idx → α) (v : S_.Idx → α) (i : Fin 5120) :
    pad S5120 ![0] ![120] ![0] x v h hu (ix1 i)
      = if hj : i.val < 5000 then x (ix1 ⟨i.val, hj⟩) else v ix0 :=
  pad_apply h hu x v (ix1 i)

/-- The feature-index column at the coordinates (d, i). -/
theorem iota_rows_ix2 (h0 : S512.BroadcastsInDim S512x1 ![0]) (h1 : S512x1.BroadcastsInDim S512x5120 ![0, 1])
    (d : Fin 512) (i : Fin 5120) :
    broadcastInDim S512x5120 ![0, 1] h1 (broadcastInDim S512x1 ![0] h0 (iotaInDim S512 32 0)) (ix2 d i)
      = BitVec.ofNat 32 d.val :=
  iota_rows_apply h0 h1 (ix2 d i)

/-- A per-path row at the coordinates (d, i). -/
theorem row_cols_ix2 {α : Type} (h0 : S5120.BroadcastsInDim S1x5120 ![1]) (h1 : S1x5120.BroadcastsInDim S512x5120 ![0, 1])
    (x : S5120.Idx → α) (d : Fin 512) (i : Fin 5120) :
    broadcastInDim S512x5120 ![0, 1] h1 (broadcastInDim S1x5120 ![1] h0 x) (ix2 d i) = x (ix1 i) :=
  row_cols_apply h0 h1 x (ix2 d i)

/-- A per-path column at the coordinates (i, k). -/
theorem col_rows_ix2 {α : Type} (h0 : S5120.BroadcastsInDim S5120x1 ![0]) (h1 : S5120x1.BroadcastsInDim S5120x512 ![0, 1])
    (x : S5120.Idx → α) (i : Fin 5120) (k : Fin 512) :
    broadcastInDim S5120x512 ![0, 1] h1 (broadcastInDim S5120x1 ![0] h0 x) (ix2 i k) = x (ix1 i) :=
  col_rows_apply h0 h1 x (ix2 i k)

/-- The feature-index row at the coordinates (i, k). -/
theorem iota_cols_ix2 (h0 : S512.BroadcastsInDim S1x512 ![1]) (h1 : S1x512.BroadcastsInDim S5120x512 ![0, 1])
    (i : Fin 5120) (k : Fin 512) :
    broadcastInDim S5120x512 ![0, 1] h1 (broadcastInDim S1x512 ![1] h0 (iotaInDim S512 32 0)) (ix2 i k)
      = BitVec.ofNat 32 k.val :=
  iota_cols_apply h0 h1 (ix2 i k)

/-- The specification's gather selector at the coordinates (d, i). -/
theorem selG_ix2 (M1 : S5000.Idx → BitVec 32) (d : Fin 512) (i : Fin 5120) :
    Cert.Spec.selG M1 (ix2 d i)
      = if h : i.val < 5000 then Cert.Spec.onehot (BitVec.ofNat 32 d.val) (M1 (ix1 ⟨i.val, h⟩)) else 0 := rfl

/-- The specification's scatter selector at the coordinates (i, k). -/
theorem selS_ix2 (M : S5000.Idx → BitVec 32) (scale : S5000.Idx → EReal) (i : Fin 5120) (k : Fin 512) :
    Cert.Spec.selS M scale (ix2 i k)
      = if h : i.val < 5000 then Cert.Spec.onehot (M (ix1 ⟨i.val, h⟩)) (BitVec.ofNat 32 k.val) * scale (ix1 ⟨i.val, h⟩) else 0 := rfl

/-- The converted comparison at an index: one when the two arrays' words there are equal, zero otherwise. -/
theorem uitofp_cmpi_apply {s : Shape} (φ : FTy) (a b : IVec s 32) (q : s.Idx) :
    (uitofp (F := Ideal) φ (cmpi .eq a b) : s.Idx → EReal) q = Cert.Spec.onehot (a q) (b q) :=
  uitofp_cmpi_eq φ (a q) (b q)

/-! ## The three arrays as the host operations compose them -/

/-- A gather selector as computed: the feature index compared with the padded index array, as a float. -/
def hostG (M1 : S5000.Idx → BitVec 32) : S512x5120.Idx → EReal :=
  uitofp (F := Ideal) .bf16
    (cmpi .eq
      (broadcastInDim S512x5120 ![0, 1] bcast_S512x1_S512x5120_0_1
        (broadcastInDim S512x1 ![0] bcast_S512_S512x1_0 (iotaInDim S512 32 0)))
      (broadcastInDim S512x5120 ![0, 1] bcast_S1x5120_S512x5120_0_1
        (broadcastInDim S1x5120 ![1] bcast_S5120_S1x5120_1
          (pad S5120 ![0] ![120] ![0] M1 (constantI S_ 32 4294967295#32) pads_S5000_S5120_01200 h_S_))))

/-- The scatter selector as computed: the padded output index compared with the feature index, as a float, times the
    padded coefficient. -/
def hostS (M : S5000.Idx → BitVec 32) (scale : S5000.Idx → EReal) : S5120x512.Idx → EReal :=
  truncf (F := Ideal) .bf16
    (mulf (F := Ideal)
      (uitofp (F := Ideal) .f32
        (cmpi .eq
          (broadcastInDim S5120x512 ![0, 1] bcast_S5120x1_S5120x512_0_1
            (broadcastInDim S5120x1 ![0] bcast_S5120_S5120x1_0
              (pad S5120 ![0] ![120] ![0] M (constantI S_ 32 4294967295#32) pads_S5000_S5120_01200 h_S_)))
          (broadcastInDim S5120x512 ![0, 1] bcast_S1x512_S5120x512_0_1
            (broadcastInDim S1x512 ![1] bcast_S512_S1x512_1 (iotaInDim S512 32 0)))))
      (broadcastInDim S5120x512 ![0, 1] bcast_S5120x1_S5120x512_0_1
        (broadcastInDim S5120x1 ![0] bcast_S5120_S5120x1_0
          (pad S5120 ![0] ![120] ![0] scale (constant (F := Ideal) S_ .f32 0x00000000#32) pads_S5000_S5120_01200 h_S_))))
    bitsLt_bf16_f32

/-- The computed gather selector is the specification's. -/
theorem hostG_eq (M1 : S5000.Idx → BitVec 32) : hostG M1 = Cert.Spec.selG M1 := by
  funext q
  obtain ⟨d, i, rfl⟩ : ∃ (d : Fin 512) (i : Fin 5120), q = ix2 d i := ⟨q 0, q 1, eq_ix2 q⟩
  rw [selG_ix2]
  unfold hostG
  rw [uitofp_cmpi_apply, iota_rows_ix2, row_cols_ix2, pad_ix1]
  by_cases h : i.val < 5000
  · rw [dif_pos h, dif_pos h]
  · rw [dif_neg h, dif_neg h]
    show Cert.Spec.onehot (BitVec.ofNat 32 d.val) 4294967295#32 = 0
    unfold Cert.Spec.onehot
    rw [if_neg (ofNat_ne_pad d.isLt)]

/-- The computed scatter selector is the specification's. -/
theorem hostS_eq (M : S5000.Idx → BitVec 32) (scale : S5000.Idx → EReal) : hostS M scale = Cert.Spec.selS M scale := by
  funext q
  obtain ⟨i, k, rfl⟩ : ∃ (i : Fin 5120) (k : Fin 512), q = ix2 i k := ⟨q 0, q 1, eq_ix2 q⟩
  rw [selS_ix2]
  unfold hostS
  rw [truncf_apply, mulf_apply, uitofp_cmpi_apply, iota_cols_ix2, col_rows_ix2, col_rows_ix2, pad_ix1, pad_ix1]
  by_cases h : i.val < 5000
  · rw [dif_pos h, dif_pos h, dif_pos h]
  · rw [dif_neg h, dif_neg h, dif_neg h, constant_apply, Ideal.ofBits_zero_f32, mul_zero]

/-! ## The arrays at the region's entry -/

/-- The first gather selector at the region's entry. -/
theorem V_g1 (m : (ℓ : Loc nD τ sig) → Buf (Elt Ideal) ℓ) (c : Dev nD) :
    (Gen.V (F := Ideal) m c main_v10 : S512x5120.Idx → EReal) = Cert.Spec.selG (m ((c : Thread nD τ).loc main_arg4)) := by
  have e : (Gen.V (F := Ideal) m c main_v10 : S512x5120.Idx → EReal) = hostG (m ((c : Thread nD τ).loc main_arg4)) := by
    dsimp only [Gen.V]
    simp only [Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append]
    after_results
    rfl
  rw [e, hostG_eq]

/-- The second gather selector at the region's entry. -/
theorem V_g2 (m : (ℓ : Loc nD τ sig) → Buf (Elt Ideal) ℓ) (c : Dev nD) :
    (Gen.V (F := Ideal) m c main_v16 : S512x5120.Idx → EReal) = Cert.Spec.selG (m ((c : Thread nD τ).loc main_arg5)) := by
  have e : (Gen.V (F := Ideal) m c main_v16 : S512x5120.Idx → EReal) = hostG (m ((c : Thread nD τ).loc main_arg5)) := by
    dsimp only [Gen.V]
    simp only [Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append]
    after_results
    rfl
  rw [e, hostG_eq]

/-- The scatter selector at the region's entry. -/
theorem V_s (m : (ℓ : Loc nD τ sig) → Buf (Elt Ideal) ℓ) (c : Dev nD) :
    (Gen.V (F := Ideal) m c main_v26 : S5120x512.Idx → EReal)
      = Cert.Spec.selS (m ((c : Thread nD τ).loc main_arg3)) (m ((c : Thread nD τ).loc main_arg2)) := by
  have e : (Gen.V (F := Ideal) m c main_v26 : S5120x512.Idx → EReal)
      = hostS (m ((c : Thread nD τ).loc main_arg3)) (m ((c : Thread nD τ).loc main_arg2)) := by
    dsimp only [Gen.V]
    simp only [Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append]
    after_results
    rfl
  rw [e, hostS_eq]

end Cert.KernelIdeal.HostValue

end
-- ==== Proof.BodyIdeal.lean ====
/-
  The kernel body, the pipeline's proof data and the run of the idealized kernel program.

  * `sound_kernel`: the body on its six staging buffers — two whole loads of the data tiles, per chunk a 640-column
    slice of each gather selector and a 640-row slice of the scatter selector, the dead load of the result's buffer and
    the whole store — leaves the result's buffer at `bodyOut` of what the five inputs hold, those unchanged.
  * `dats`: after the body at point t the data tiles as fetched, the selectors whole, the result tile `outTile`.
    The data arrays have 20000 rows and the tiles 512, so the last tile overhangs the arrays by 480 rows: its fetch
    lands 32 rows and the rest of the buffer holds words nothing names; the obligation for such a window speaks of the
    rows inside the array only, and the result's rows inside the array must not depend on the filler (`RowLocal`).
  * `run_main`: the frame run, given row locality.
-/
import proofs.«420083_j7232724927034_3_alg».proof.Proof.BodyDefIdeal
import proofs.«420083_j7232724927034_3_alg».proof.Proof.Gen.KernelIdeal.Frame
import Idealize.ShloMosaic.Lib.Pipeline.Value

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

/-- The kernel's variants: none. -/
abbrev 𝒱₀ : Variants := Variants.none

/-- The whole-buffer rectangle's offsets are zero. -/
theorem off0 : (![0, 0] : Fin 2 → ℕ) = fun _ => 0 := funext fun a => by fin_cases a <;> rfl

/-- One store through the whole-buffer rectangle covers every index. -/
theorem cover_whole (w : Vec F S512x512 .f32) (y : S512x512.Idx) :
    ∃ pc ∈ ([⟨Rect.unit ![0, 0] S512x512.size Facts₀.inb_S512x512_S512x512_0_0, w⟩] : List (View.Piece (Elt F) S512x512 .f32)), y ∈ pc.1.set :=
  ⟨_, List.mem_singleton_self _, View.mem_set_unit_zero off0 Facts₀.inb_S512x512_S512x512_0_0 y⟩
theorem sound_kernel (c : Dev nD) (i : grid0.Coords)
    (arg1 : Memref sig .tc .vmem S512x512 .f32) (harg1 : arg1.IsWhole) (arg2 : Memref sig .tc .vmem S512x512 .f32) (harg2 : arg2.IsWhole)
    (arg3 : Memref sig .tc .vmem S512x5120 .bf16) (harg3 : arg3.IsWhole) (arg4 : Memref sig .tc .vmem S512x5120 .bf16) (harg4 : arg4.IsWhole)
    (arg5 : Memref sig .tc .vmem S5120x512 .bf16) (harg5 : arg5.IsWhole) (arg6 : Memref sig .tc .vmem S512x512 .f32) (harg6 : arg6.IsWhole)
    (X0 X1 : Vec F S512x512 .f32) (Y2 Y3 : Vec F S512x5120 .bf16) (Y4 : Vec F S5120x512 .bf16) (K : PUnit → sProp 𝕄) :
    iprop(owns (c : Thread nD τ) arg1 fullShare X0 ∗ owns (c : Thread nD τ) arg2 fullShare X1 ∗ owns (c : Thread nD τ) arg3 fullShare Y2
        ∗ owns (c : Thread nD τ) arg4 fullShare Y3 ∗ owns (c : Thread nD τ) arg5 fullShare Y4 ∗ (∃ d, owns (c : Thread nD τ) arg6 fullShare d)
        ∗ (iprop(owns (c : Thread nD τ) arg1 fullShare X0 ∗ owns (c : Thread nD τ) arg2 fullShare X1 ∗ owns (c : Thread nD τ) arg3 fullShare Y2
            ∗ owns (c : Thread nD τ) arg4 fullShare Y3 ∗ owns (c : Thread nD τ) arg5 fullShare Y4
            ∗ owns (c : Thread nD τ) arg6 fullShare (bodyOut X0 X1 Y2 Y3 Y4)) -∗ K ⟨⟩))
      ⊢ wp frame (wpE (defs₀ (F := F)) 𝒱₀ c none) Set.univ (cc0__kernel i arg1 harg1 arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_whole _), View.canon_unit_zero off0]
  sl_unfold_words
  simp only [View.readAt_eq_ld, View.ld_unit_zero (S := S512x512) off0]
  rfl

/-! ## The pipeline's proof data -/

variable (m : (ℓ : Loc nD τ sig) → Buf (Elt F) ℓ) (ρ : Dev nD → PrngReg)

/-- The filler past the arrays' end: the zero word (nothing reads it into a row that is written back). -/
def zfill : S512x512.Idx → Elt F .f32 := fun _ => Scalar.ofBits .f32 0#32

/-- The 512-row tile of x at point t: the rows inside the array, filled out with zeros past its end (the last tile). -/
def xtile (c : Dev nD) (t : Fin cfg0.N) : Vec F S512x512 .f32 := win0_0.fill (grid0.coords t) zfill (iblk m c 0 t)
/-- The tile of y likewise. -/
def ytile (c : Dev nD) (t : Fin cfg0.N) : Vec F S512x512 .f32 := win0_1.fill (grid0.coords t) zfill (iblk m c 1 t)
/-- The result tile the body computes from those. -/
def outTile (c : Dev nD) (t : Fin cfg0.N) : Vec F S512x512 .f32 :=
  bodyOut (xtile m c t) (ytile m c t) (iblk m c 2 t) (iblk m c 3 t) (iblk m c 4 t)

/-- The proof data of the one pipeline on core c: the arrays as the region finds them; after the body at point t the
    data tiles as fetched (zero-filled past the array's end), the three selectors whole, and the result tile. -/
def dats (_ : Fin 1) (c : Dev nD) : Dat τ (Elt F) Unit ℕ (UR sig nD τ) ℕ cfg0 c where
  A w := V m c (Pipeline.arrRef spec0 w)
  after w t := match w with
    | ⟨0, _⟩ => xtile m c t
    | ⟨1, _⟩ => ytile m c t
    | ⟨2, _⟩ => iblk m c 2 t
    | ⟨3, _⟩ => iblk m c 3 t
    | ⟨4, _⟩ => iblk m c 4 t
    | ⟨5, _⟩ => outTile m c t
  Φ _ := ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = xtile m c t := by dsimp only [dats]
theorem after0_1 (c : Dev nD) (t : Fin cfg0.N) : (dats m 0 c).after 1 t = ytile m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outTile m c t := by dsimp only [dats]

/-- What the body finds: the data tiles just fetched (the rows inside the array; anything past it), -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
/-- and each selector whole, fetched at the first point and left in place since. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the windows whose last block overhangs the array (the data tiles and the result) stated on
    the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare (win0_5.fill (grid0.coords t) d (win0_5.cut (grid0.coords t) ((dats m 0 c).after 5 t)))))

/-- ROW LOCALITY, as the obligation needs it: on the rows inside the array the result tile does not depend on what
    fills the data tiles past the array's end. -/
def RowLocal (c : Dev nD) : Prop :=
  ∀ (t : Fin cfg0.N) (d0 d1 : S512x512.Idx → Elt F .f32),
    win0_5.cut (grid0.coords t) (bodyOut (win0_0.fill (grid0.coords t) d0 (iblk m c 0 t))
        (win0_1.fill (grid0.coords t) d1 (iblk m c 1 t)) (iblk m c 2 t) (iblk m c 3 t) (iblk m c 4 t))
      = win0_5.cut (grid0.coords t) (outTile m c t)

/-- The body at any point: the buffers hold the fetched tiles and the selectors, so `sound_kernel` applies; the class
    invariant and the core's `owes` pass through unread; what is left is restated on the rows inside the array. -/
theorem sound_body (c : Dev nD) (hloc : RowLocal m c) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel (F := F) c (grid0.coords t) _ _ _ _ _ _ _ _ _ _ _ _
    (win0_0.fill (grid0.coords t) d0 (iblk m c 0 t)) (win0_1.fill (grid0.coords t) d1 (iblk m c 1 t))
    (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [show win0_0.cut (grid0.coords t) (xtile m c t) = iblk m c 0 t from win0_0.cut_fill _ _ _]
    iexact H0
  isplitl [H1]
  · iexists d1
    rw [show win0_1.cut (grid0.coords t) (ytile m c t) = iblk m c 1 t from win0_1.cut_fill _ _ _]
    iexact H1
  isplitl [H2]; · iexact H2
  isplitl [H3]; · iexact H3
  isplitl [H4]; · iexact H4
  iexists _
  rw [win0_5.fill_congr_cut (grid0.coords t) (hloc t d0 d1)]
  iexact H5

/-- The library's body obligation, at every point. -/
theorem body_obligation (c : Dev nD) (hloc : RowLocal m c) :
    BodyObligationLoose (dats (F := F) m 0 c) (defs₀ (F := F)) 𝒱₀ () Set.univ := fun t => by
  rw [bigSep_W0, bigSep_W0]
  exact sound_body m c hloc t

/-! ## The run and the frame -/

set_option backward.isDefEq.respectTransparency.types false in
/-- At the compiled mesh, for any values, from any memory with zero counters: every weakly fair execution of @main
    terminates, and every final state has every array of the pipeline at what the library computes from the proof data
    and every other unscoped buffer as the region found it. -/
theorem run_main (hloc : ∀ c, RowLocal m c) :
    θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => body_obligation m c (hloc c)) (hshare := fun c => (dats m 0 c).share_full fun _ => rfl)
    (howed := fun _ _ => rfl) (V := V m) (hmain := hmain m 𝒱₀) (hA := fun _ _ => rfl) (hΦ := fun _ _ => rfl)

end Cert.KernelIdeal.Body

end
-- ==== Proof.SpecLaw.lean ====
/-
  The kernel's accumulation for one row, read path by path, is the specification's sum.

  Three facts carry it.  A word that lies in [0, 512) as a signed number is its own column number, so "the word of
  feature d equals this word" holds for exactly one feature d.  A dot product with a column that holds a single one
  picks one entry (0 * a = 0, 1 * a = a and 0 + a = a are all it needs, so infinite entries do no harm).  And the
  eight chunks of 640 paths are the 5120 padded paths once each, of which the last 120 contribute zero.
-/
import proofs.«420083_j7232724927034_3_alg».proof.Proof.Spec
import Idealize.ShloMosaic.Lib.ValueIdx
import Mathlib.Algebra.BigOperators.Fin
import Mathlib.Data.EReal.Basic
import Mathlib.Logic.Equiv.Fin.Basic

noncomputable section

open scoped BigOperators

namespace Cert.Spec

open Idealize.ShloMosaic Idealize.ShloMosaic.ValueIdx

/-! ## Index words in range -/

/-- A word in [0, 512) as a signed number is below 512 as a natural number. -/
theorem toNat_lt_of_toInt (w : BitVec 32) (h0 : 0 ≤ w.toInt) (h1 : w.toInt < 512) : w.toNat < 512 := by
  have := w.isLt
  rw [BitVec.toInt_eq_toNat_cond] at h0 h1
  split at h0 <;> split at h1 <;> omega

/-- Such a word's column is the word itself. -/
theorem col_val (w : BitVec 32) (h : w.toNat < 512) : (col w).val = w.toNat := Nat.mod_eq_of_lt h

/-- Feature d's word equals such a word exactly when d is the word's column. -/
theorem ofNat_eq_iff (w : BitVec 32) (h : w.toNat < 512) (d : Fin 512) :
    BitVec.ofNat 32 d.val = w ↔ d = col w := by
  have hd := d.isLt
  constructor
  · intro e
    apply Fin.ext
    rw [col_val w h, ← e, BitVec.toNat_ofNat]
    omega
  · intro e
    apply BitVec.eq_of_toNat_eq
    rw [BitVec.toNat_ofNat, e, col_val w h]
    omega

/-! ## A dot product with a one-hot column -/

/-- Against the column that is one at the word's feature and zero elsewhere, a dot product is that feature's entry. -/
theorem sum_mul_onehot (f : Fin 512 → EReal) (w : BitVec 32) (h : w.toNat < 512) :
    ∑ d : Fin 512, f d * onehot (BitVec.ofNat 32 d.val) w = f (col w) := by
  rw [Finset.sum_eq_single (col w)]
  · rw [onehot, if_pos ((ofNat_eq_iff w h _).2 rfl), mul_one]
  · intro d _ hd
    rw [onehot, if_neg (fun e => hd ((ofNat_eq_iff w h d).1 e)), mul_zero]
  · intro hn
    exact absurd (Finset.mem_univ _) hn

/-! ## The selectors at a path -/

/-- A gather selector at a real path is the one-hot test of the feature's word against the path's word. -/
theorem selG_lt (M1 : SV.Idx → BitVec 32) (d : Fin 512) (i : Fin 5120) (h : i.val < 5000) :
    selG M1 (ix2 d i) = onehot (BitVec.ofNat 32 d.val) (M1 (ix1 ⟨i.val, h⟩)) := dif_pos h

/-- The scatter selector at a real path is the one-hot test times the path's coefficient. -/
theorem selS_lt (M : SV.Idx → BitVec 32) (scale : SV.Idx → EReal) (i : Fin 5120) (k : Fin 512) (h : i.val < 5000) :
    selS M scale (ix2 i k) = onehot (M (ix1 ⟨i.val, h⟩)) (BitVec.ofNat 32 k.val) * scale (ix1 ⟨i.val, h⟩) := dif_pos h

/-- The scatter selector is zero on the padding. -/
theorem selS_ge (M : SV.Idx → BitVec 32) (scale : SV.Idx → EReal) (i : Fin 5120) (k : Fin 512) (h : ¬ i.val < 5000) :
    selS M scale (ix2 i k) = 0 := dif_neg h

/-! ## One path's contribution -/

/-- What path i of the padded range adds to entry k of a row: the two dot products times the scatter entry. -/
def pathTerm (xr yr : Fin 512 → EReal) (g1 g2 : SG.Idx → EReal) (s : SS.Idx → EReal) (k : Fin 512) (i : Fin 5120) : EReal :=
  ((∑ d : Fin 512, xr d * g1 (ix2 d i)) * (∑ d : Fin 512, yr d * g2 (ix2 d i))) * s (ix2 i k)

/-- A real path contributes its term when it writes feature k and nothing otherwise. -/
theorem pathTerm_lt (x y : SX.Idx → EReal) (scale : SV.Idx → EReal) (M M1 M2 : SV.Idx → BitVec 32)
    (hM : InRange M) (hM1 : InRange M1) (hM2 : InRange M2) (b : Fin 20000) (k : Fin 512) (i : Fin 5000) :
    pathTerm (fun d => x (ix2 b d)) (fun d => y (ix2 b d)) (selG M1) (selG M2) (selS M scale) k (Fin.castAdd 120 i)
      = if (col (M (ix1 i))).val = k.val then term x y scale M1 M2 b i else 0 := by
  have h : (Fin.castAdd 120 i).val < 5000 := i.isLt
  have hMn := toNat_lt_of_toInt _ (hM i).1 (hM i).2
  have hM1n := toNat_lt_of_toInt _ (hM1 i).1 (hM1 i).2
  have hM2n := toNat_lt_of_toInt _ (hM2 i).1 (hM2 i).2
  have e1 : ∑ d : Fin 512, x (ix2 b d) * selG M1 (ix2 d (Fin.castAdd 120 i)) = x (ix2 b (col (M1 (ix1 i)))) := by
    simp only [selG_lt M1 _ _ h]
    exact sum_mul_onehot (fun d => x (ix2 b d)) _ hM1n
  have e2 : ∑ d : Fin 512, y (ix2 b d) * selG M2 (ix2 d (Fin.castAdd 120 i)) = y (ix2 b (col (M2 (ix1 i)))) := by
    simp only [selG_lt M2 _ _ h]
    exact sum_mul_onehot (fun d => y (ix2 b d)) _ hM2n
  have e3 : selS M scale (ix2 (Fin.castAdd 120 i) k)
      = onehot (M (ix1 i)) (BitVec.ofNat 32 k.val) * scale (ix1 i) := selS_lt M scale _ k h
  unfold pathTerm
  rw [e1, e2, e3]
  by_cases hk : (col (M (ix1 i))).val = k.val
  · have hw : M (ix1 i) = BitVec.ofNat 32 k.val := ((ofNat_eq_iff _ hMn k).2 (Fin.ext hk.symm)).symm
    rw [if_pos hk, onehot, if_pos hw, one_mul, term]
  · have hw : ¬ M (ix1 i) = BitVec.ofNat 32 k.val := fun e =>
      hk (congrArg Fin.val ((ofNat_eq_iff _ hMn k).1 e.symm)).symm
    rw [if_neg hk, onehot, if_neg hw, zero_mul, mul_zero]

/-- A padded path contributes nothing. -/
theorem pathTerm_ge (xr yr : Fin 512 → EReal) (g1 g2 : SG.Idx → EReal) (M : SV.Idx → BitVec 32) (scale : SV.Idx → EReal)
    (k : Fin 512) (i : Fin 120) :
    pathTerm xr yr g1 g2 (selS M scale) k (Fin.natAdd 5000 i) = 0 := by
  have h : ¬ (Fin.natAdd 5000 i).val < 5000 := by simp [Fin.natAdd]
  unfold pathTerm
  rw [selS_ge M scale _ k h, mul_zero]

/-! ## The eight chunks are the padded range -/

/-- Summing over the chunk number and the place inside the chunk is summing over the 5120 padded paths. -/
theorem sum_chunks (f : Fin 5120 → EReal) : ∑ c : Fin 8, ∑ j : Fin 640, f (ci c j) = ∑ i : Fin 5120, f i := by
  rw [← Fintype.sum_prod_type' (fun c j => f (ci c j))]
  refine Fintype.sum_equiv (finProdFinEquiv (m := 8) (n := 640)) _ _ (fun p => ?_)
  congr 1
  apply Fin.ext
  simp only [ci, finProdFinEquiv_apply_val]
  omega

/-- The kernel's accumulation for one row is the sum of the padded paths' contributions. -/
theorem rowAcc_eq_sum (xr yr : Fin 512 → EReal) (g1 g2 : SG.Idx → EReal) (s : SS.Idx → EReal) (k : Fin 512) :
    rowAcc xr yr g1 g2 s k = ∑ i : Fin 5120, pathTerm xr yr g1 g2 s k i := by
  rw [← sum_chunks, Fin.sum_univ_eight]
  unfold rowAcc
  rw [zero_add]
  rfl

/-! ## The row law -/

/-- The kernel's accumulation for row b, with the three selectors built from in-range index words, is entry (b, k) of
    the specification: the 5000 real paths give their terms where they write feature k, the 120 padded paths give zero. -/
theorem rowAcc_eq (x y : SX.Idx → EReal) (scale : SV.Idx → EReal) (M M1 M2 : SV.Idx → BitVec 32)
    (hM : InRange M) (hM1 : InRange M1) (hM2 : InRange M2) (b : Fin 20000) (k : Fin 512) :
    rowAcc (fun d => x (ix2 b d)) (fun d => y (ix2 b d)) (selG M1) (selG M2) (selS M scale) k
      = G x y scale M M1 M2 (ix2 b k) := by
  rw [rowAcc_eq_sum]
  rw [show (∑ i : Fin 5120, pathTerm (fun d => x (ix2 b d)) (fun d => y (ix2 b d)) (selG M1) (selG M2) (selS M scale) k i)
      = ∑ i : Fin (5000 + 120), pathTerm (fun d => x (ix2 b d)) (fun d => y (ix2 b d)) (selG M1) (selG M2) (selS M scale) k i
      from rfl]
  rw [Fin.sum_univ_add]
  simp only [pathTerm_ge, Finset.sum_const_zero, add_zero]
  simp only [pathTerm_lt x y scale M M1 M2 hM hM1 hM2 b k]
  rfl

end Cert.Spec

end
-- ==== Proof.KernelValue.lean ====
/-
  The idealized kernel's result array, at the exact values: the specified function of the six argument arrays.

  * Row locality: entry (r, k) of the result tile is the kernel's accumulation for row r of the two data tiles, so on
    the rows of the last tile that lie inside the 20000-row arrays the 480 rows of filler do not matter.
  * The blocks: tile t of x and of y is rows 512 t … of the arrays; each selector window's one block is the whole
    selector array, which the host built from the index arrays.
  * What point t writes back is tile t of the specification (the accumulation is the specified sum once the index
    words are in range); the forty tiles, the last cut at the array's end, cover the array; so the result array ends
    holding the specification.
-/
import proofs.«420083_j7232724927034_3_alg».proof.Proof.PayValue
import proofs.«420083_j7232724927034_3_alg».proof.Proof.HostValue
import proofs.«420083_j7232724927034_3_alg».proof.Proof.BodyIdeal
import proofs.«420083_j7232724927034_3_alg».proof.Proof.SpecLaw
import Idealize.ShloMosaic.Lib.Pipeline.Value
import Idealize.ShloMosaic.Lib.ValueIdx

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The windows' index maps and cuts, decided over the forty grid points -/

/-- Tile t of each data window and of the result starts at row 512 t, column 0. -/
theorem idx_facts : ∀ t : Fin cfg0.N, win0_5.index t 0 = t.val ∧ win0_5.index t 1 = 0
    ∧ win0_0.index t 0 = t.val ∧ win0_0.index t 1 = 0 ∧ win0_1.index t 0 = t.val ∧ win0_1.index t 1 = 0 :=
  (by decide +kernel : ∀ t : Fin grid0.N, _)

/-- Its part inside the array has min 512 (20000 - 512 t) rows and all 512 columns. -/
theorem xsize_facts : ∀ t : Fin cfg0.N, win0_5.xsize (grid0.coords t) 0 = min 512 (20000 - 512 * t.val) ∧ win0_5.xsize (grid0.coords t) 1 = 512
    ∧ win0_0.xsize (grid0.coords t) 0 = min 512 (20000 - 512 * t.val) ∧ win0_0.xsize (grid0.coords t) 1 = 512
    ∧ win0_1.xsize (grid0.coords t) 0 = min 512 (20000 - 512 * t.val) ∧ win0_1.xsize (grid0.coords t) 1 = 512 :=
  (by decide +kernel : ∀ t : Fin grid0.N, _)

/-- A row of the result tile that lies inside the array. -/
theorem row_lt (t : Fin cfg0.N) (j : (win0_5.xblock (grid0.coords t)).Idx) :
    (j 0).val < min 512 (20000 - 512 * t.val) ∧ (j 1).val < 512 := by
  have h0 := (j 0).isLt
  have h1 := (j 1).isLt
  have e := xsize_facts t
  exact ⟨by rw [← e.1]; exact h0, by rw [← e.2.1]; exact h1⟩

/-- On a row inside the array a data tile does not depend on what fills it past the array's end. -/
theorem xfill_row (c : Dev nD) (t : Fin cfg0.N) (d : S512x512.Idx → EReal) (r q : Fin 512)
    (hr : r.val < min 512 (20000 - 512 * t.val)) :
    win0_0.fill (grid0.coords t) d (iblk m c 0 t) (ix2 r q) = xtile m c t (ix2 r q) := by
  have hm : win0_0.moved (grid0.coords t) (ix2 r q) = true := by
    rw [Window.moved_iff]
    intro a
    have e := xsize_facts t
    match a with
    | ⟨0, _⟩ => show r.val < win0_0.xsize (grid0.coords t) 0; rw [e.2.2.1]; exact hr
    | ⟨1, _⟩ => show q.val < win0_0.xsize (grid0.coords t) 1; rw [e.2.2.2.1]; exact q.isLt
  unfold xtile Window.fill
  rw [dif_pos hm, dif_pos hm]

theorem yfill_row (c : Dev nD) (t : Fin cfg0.N) (d : S512x512.Idx → EReal) (r q : Fin 512)
    (hr : r.val < min 512 (20000 - 512 * t.val)) :
    win0_1.fill (grid0.coords t) d (iblk m c 1 t) (ix2 r q) = ytile m c t (ix2 r q) := by
  have hm : win0_1.moved (grid0.coords t) (ix2 r q) = true := by
    rw [Window.moved_iff]
    intro a
    have e := xsize_facts t
    match a with
    | ⟨0, _⟩ => show r.val < win0_1.xsize (grid0.coords t) 0; rw [e.2.2.2.2.1]; exact hr
    | ⟨1, _⟩ => show q.val < win0_1.xsize (grid0.coords t) 1; rw [e.2.2.2.2.2]; exact q.isLt
  unfold ytile Window.fill
  rw [dif_pos hm, dif_pos hm]

/-- ROW LOCALITY at the exact values: entry (r, k) of the result tile is a function of row r of the two data tiles (and
    of the selectors), so on the rows inside the array the filler does not matter. -/
theorem rowLocal (c : Dev nD) : RowLocal (F := Ideal) m c := by
  intro t d0 d1
  funext j
  obtain ⟨hr, hk⟩ := row_lt t j
  show (bodyOut (F := Ideal) _ _ _ _ _ (win0_5.xinj (grid0.coords t) j) : EReal) = outTile m c t (win0_5.xinj (grid0.coords t) j)
  have ej : win0_5.xinj (grid0.coords t) j = ix2 (⟨(j 0).val, by omega⟩ : Fin 512) (⟨(j 1).val, hk⟩ : Fin 512) :=
    funext fun a => by match a with | ⟨0, _⟩ => rfl | ⟨1, _⟩ => rfl
  rw [ej]
  unfold outTile
  rw [PayValue.bodyOut_apply, PayValue.bodyOut_apply]
  congr 1
  · funext q; exact xfill_row m c t d0 _ q hr
  · funext q; exact yfill_row m c t d1 _ q hr

/-! ## The blocks read off the arrays -/

/-- The three selector windows' one block is the whole array, at block index 0. -/
theorem sel_idx : ∀ t : Fin cfg0.N, (∀ a, win0_2.index t a = 0) ∧ (∀ a, win0_3.index t a = 0) ∧ (∀ a, win0_4.index t a = 0) :=
  (by decide +kernel : ∀ t : Fin grid0.N, _)

theorem iblk_2 (c : Dev nD) (t : Fin cfg0.N) : iblk m c 2 t = (V m c main_v10 : S512x5120.Idx → EReal) := by
  have hz : (fun a => (win0_2.index t) a * main_v10.ty.shape.size a) = fun _ => 0 :=
    funext fun a => by rw [(sel_idx t).1 a, Nat.zero_mul]
  exact Memref.read_access_unit_zero (Elt Ideal) main_v10 hz _ _
theorem iblk_3 (c : Dev nD) (t : Fin cfg0.N) : iblk m c 3 t = (V m c main_v16 : S512x5120.Idx → EReal) := by
  have hz : (fun a => (win0_3.index t) a * main_v16.ty.shape.size a) = fun _ => 0 :=
    funext fun a => by rw [(sel_idx t).2.1 a, Nat.zero_mul]
  exact Memref.read_access_unit_zero (Elt Ideal) main_v16 hz _ _
theorem iblk_4 (c : Dev nD) (t : Fin cfg0.N) : iblk m c 4 t = (V m c main_v26 : S5120x512.Idx → EReal) := by
  have hz : (fun a => (win0_4.index t) a * main_v26.ty.shape.size a) = fun _ => 0 :=
    funext fun a => by rw [(sel_idx t).2.2 a, Nat.zero_mul]
  exact Memref.read_access_unit_zero (Elt Ideal) main_v26 hz _ _

/-- Row r of tile t of x, inside the array, is row 512 t + r of x. -/
theorem xtile_row (c : Dev nD) (t : Fin cfg0.N) (r q : Fin 512) (hr : r.val < min 512 (20000 - 512 * t.val))
    (hb : 512 * t.val + r.val < 20000) :
    xtile m c t (ix2 r q)
      = (m ((c : Thread nD τ).loc main_arg0) : S20000x512.Idx → EReal) (ix2 ⟨512 * t.val + r.val, hb⟩ q) := by
  have hm : win0_0.moved (grid0.coords t) (ix2 r q) = true := by
    rw [Window.moved_iff]
    intro a
    have e := xsize_facts t
    match a with
    | ⟨0, _⟩ => show r.val < win0_0.xsize (grid0.coords t) 0; rw [e.2.2.1]; exact hr
    | ⟨1, _⟩ => show q.val < win0_0.xsize (grid0.coords t) 1; rw [e.2.2.2.1]; exact q.isLt
  unfold xtile Window.fill
  rw [dif_pos hm, ← V_main_arg0 m c]
  show V m c main_arg0 (((cfg0.win 0).blk t).view.emb _) = V m c main_arg0 _
  refine congrArg _ (funext fun a => Fin.ext ?_)
  have e := idx_facts t
  match a with
  | ⟨0, _⟩ => show win0_0.index t 0 * 512 + 1 * r.val = 512 * t.val + r.val; rw [e.2.2.1]; omega
  | ⟨1, _⟩ => show win0_0.index t 1 * 512 + 1 * q.val = q.val; rw [e.2.2.2.1]; omega

theorem ytile_row (c : Dev nD) (t : Fin cfg0.N) (r q : Fin 512) (hr : r.val < min 512 (20000 - 512 * t.val))
    (hb : 512 * t.val + r.val < 20000) :
    ytile m c t (ix2 r q)
      = (m ((c : Thread nD τ).loc main_arg1) : S20000x512.Idx → EReal) (ix2 ⟨512 * t.val + r.val, hb⟩ q) := by
  have hm : win0_1.moved (grid0.coords t) (ix2 r q) = true := by
    rw [Window.moved_iff]
    intro a
    have e := xsize_facts t
    match a with
    | ⟨0, _⟩ => show r.val < win0_1.xsize (grid0.coords t) 0; rw [e.2.2.2.2.1]; exact hr
    | ⟨1, _⟩ => show q.val < win0_1.xsize (grid0.coords t) 1; rw [e.2.2.2.2.2]; exact q.isLt
  unfold ytile Window.fill
  rw [dif_pos hm, ← V_main_arg1 m c]
  show V m c main_arg1 (((cfg0.win 1).blk t).view.emb _) = V m c main_arg1 _
  refine congrArg _ (funext fun a => Fin.ext ?_)
  have e := idx_facts t
  match a with
  | ⟨0, _⟩ => show win0_1.index t 0 * 512 + 1 * r.val = 512 * t.val + r.val; rw [e.2.2.2.2.1]; omega
  | ⟨1, _⟩ => show win0_1.index t 1 * 512 + 1 * q.val = q.val; rw [e.2.2.2.2.2]; omega

/-! ## The result array -/

/-- The specification at core c's argument arrays as launched. -/
def Gc (c : Dev nD) : S20000x512.Idx → EReal :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The index ranges of the three per-path index arrays on core c. -/
def Ranges (c : Dev nD) : Prop :=
  Cert.Spec.InRange (m ((c : Thread nD τ).loc main_arg3)) ∧ Cert.Spec.InRange (m ((c : Thread nD τ).loc main_arg4))
    ∧ Cert.Spec.InRange (m ((c : Thread nD τ).loc main_arg5))

/-- What point t writes back — the rows of its result tile that lie inside the array — is tile t of the specification:
    entry (r, k) is the kernel's accumulation for row 512 t + r of x and y against the three selectors, which the host
    built from the index arrays, and that accumulation is the specified sum. -/
theorem flushed_eq (c : Dev nD) (hR : Ranges m c) (t : Fin cfg0.N) (hf : (cfg0.win 5).flush t = true) :
    (dats m 0 c).flushed 5 t = ((cfg0.win 5).blk t).view.read (Elt Ideal) (Gc m c) := by
  funext j
  obtain ⟨hr, hk⟩ := row_lt t j
  have ht : t.val < 40 := lt_of_lt_of_eq t.isLt N_0
  have hr512 : (j 0).val < 512 := by omega
  have hb : 512 * t.val + (j 0).val < 20000 := by omega
  show (outTile m c t (win0_5.xinj (grid0.coords t) j) : EReal) = Gc m c (((cfg0.win 5).blk t).view.emb j)
  have ej : win0_5.xinj (grid0.coords t) j = ix2 (⟨(j 0).val, hr512⟩ : Fin 512) (⟨(j 1).val, hk⟩ : Fin 512) :=
    funext fun a => by match a with | ⟨0, _⟩ => rfl | ⟨1, _⟩ => rfl
  have eb : ((cfg0.win 5).blk t).view.emb j = ix2 (⟨512 * t.val + (j 0).val, hb⟩ : Fin 20000) (⟨(j 1).val, hk⟩ : Fin 512) := by
    refine funext fun a => Fin.ext ?_
    have e := idx_facts t
    match a with
    | ⟨0, _⟩ => show win0_5.index t 0 * 512 + 1 * (j 0).val = 512 * t.val + (j 0).val; rw [e.1]; omega
    | ⟨1, _⟩ => show win0_5.index t 1 * 512 + 1 * (j 1).val = (j 1).val; rw [e.2.1]; omega
  rw [ej, eb]
  unfold outTile
  rw [PayValue.bodyOut_apply, iblk_2, iblk_3, iblk_4, HostValue.V_g1, HostValue.V_g2, HostValue.V_s]
  have hx : (fun d => xtile m c t (ix2 (⟨(j 0).val, hr512⟩ : Fin 512) d))
      = fun d => (m ((c : Thread nD τ).loc main_arg0) : S20000x512.Idx → EReal) (ix2 ⟨512 * t.val + (j 0).val, hb⟩ d) :=
    funext fun d => xtile_row m c t _ d hr hb
  have hy : (fun d => ytile m c t (ix2 (⟨(j 0).val, hr512⟩ : Fin 512) d))
      = fun d => (m ((c : Thread nD τ).loc main_arg1) : S20000x512.Idx → EReal) (ix2 ⟨512 * t.val + (j 0).val, hb⟩ d) :=
    funext fun d => ytile_row m c t _ d hr hb
  rw [hx, hy]
  exact Cert.Spec.rowAcc_eq _ _ _ _ _ _ hR.1 hR.2.1 hR.2.2 ⟨512 * t.val + (j 0).val, hb⟩ ⟨(j 1).val, hk⟩

/-- Every row of the array lies in the tile of point (row / 512), which is written back. -/
theorem cover (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 20000 := (i 0).isLt
  have h1 : (i 1 : Nat) < 512 := (i 1).isLt
  have hN : cfg0.N = 40 := N_0
  have hlt : (i 0 : Nat) / 512 < cfg0.N := by rw [hN]; omega
  refine ⟨⟨(i 0 : Nat) / 512, hlt⟩, flush0_5 _, ?_⟩
  show i ∈ ((View.whole main_v27).slice (win0_5.rect ⟨(i 0 : Nat) / 512, hlt⟩)).set
  rw [View.set_slice_whole, Rect.mem_set_unit]
  intro a
  have e := idx_facts ⟨(i 0 : Nat) / 512, hlt⟩
  have x := xsize_facts ⟨(i 0 : Nat) / 512, hlt⟩
  match a with
  | ⟨0, _⟩ =>
    show win0_5.index _ 0 * win0_5.size 0 ≤ (i 0 : Nat) ∧ (i 0 : Nat) < win0_5.index _ 0 * win0_5.size 0 + win0_5.xsize (grid0.coords _) 0
    rw [e.1, x.1]
    show (i 0 : Nat) / 512 * 512 ≤ (i 0 : Nat) ∧ (i 0 : Nat) < (i 0 : Nat) / 512 * 512 + min 512 (20000 - 512 * ((i 0 : Nat) / 512))
    omega
  | ⟨1, _⟩ =>
    show win0_5.index _ 1 * win0_5.size 1 ≤ (i 1 : Nat) ∧ (i 1 : Nat) < win0_5.index _ 1 * win0_5.size 1 + win0_5.xsize (grid0.coords _) 1
    rw [e.2.1, x.2.1]
    omega

/-- So the result array ends holding the specification. -/
theorem final (c : Dev nD) (hR : Ranges m c) : (dats m 0 c).arrAt 5 cfg0.N = Gc m c :=
  (dats m 0 c).arrAt_eq_of_cover 5 (Gc m c) (flushed_eq m c hR) (cover c)

/-! ## The run -/

/-- The idealized kernel's run: it terminates, faults nowhere, leaves the result array at what the library computes from
    the proof data, and its six argument arrays unchanged. Needs no precondition. -/
theorem run : θ_run defs (onTc (τ := τ) (main (F := Ideal))) ⟨m, fun _ => 0, ρ⟩ (fun r => ∀ c : Dev nD,
      r.2.mem ((c.tc : Thread nD τ).loc main_v27) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 5,
      ((h c).1 0).trans (((dats m 0 c).arrAt_in 0 rfl _).trans (V_main_arg0 m c)),
      ((h c).1 1).trans (((dats m 0 c).arrAt_in 1 rfl _).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ (rowLocal m))

end Cert.KernelIdeal.KValue

end
-- ==== Proof.RefValue.lean ====
import proofs.«420083_j7232724927034_3_alg».proof.Proof.Gen.ReferenceIdeal.Run
import proofs.«420083_j7232724927034_3_alg».proof.Proof.Gen.ReferenceIdeal.Read
import proofs.«420083_j7232724927034_3_alg».proof.Proof.Spec
import Idealize.ShloMosaic.Lib.ValueIdx
import Idealize.ShloMosaic.PureOps.Ideal.Laws

/-
  The reference program's result, as a function of its six arguments, is the specification's G when every index word
  lies in [0, 512).

  The reference wraps each index array (w <s 0 ? w + 512 : w — the identity on a non-negative word), gathers whole
  columns of x and y at the wrapped words of M1 and M2, multiplies the two gathered arrays and the broadcast
  coefficient elementwise, and scatter-adds the [20000 × 5000] product into a zero [20000 × 512] array along the
  feature axis at the wrapped words of M.

  * The gather at (b, i) reads row b of the operand at the start word of path i, read signed and clamped into
    [0, 511]; in range the clamp is the identity and the column is the one the word names.
  * Update (b', i) of the scatter lands at row b' and at the column path i's word names; in range no update is dropped.
    So entry (b, k) is 0 plus the sum, over all updates whose landing point is (b, k), of the update: over the rows
    only b' = b contributes, and within row b the paths whose word names k.
  * Update (b, i) is x[b, M1[i]] * y[b, M2[i]] * scale[i], path i's contribution to row b.

  Only 0 + a = a and the reindexing of a finite sum are used of the extended reals.
-/

noncomputable section

open scoped BigOperators

namespace Cert.ReferenceIdeal.RefValue

open Idealize.ShloMosaic Idealize.ShloMosaic.ValueIdx
open Cert.ReferenceIdeal Cert.ReferenceIdeal.Gen

/-! ## Words -/

/-- A word that is non-negative as a signed number is left alone by the negative-index wrap
    `select (w <s 0) (w + 512) w`, whatever the wrapped alternative is. -/
theorem wrap_of_nonneg (w a : BitVec 32) (h : 0 ≤ w.toInt) :
    Scalar.select (IntOp.cmpi .slt w 0#32) a w = w := by
  have h0 : IntOp.cmpi .slt w 0#32 = 0#1 := by
    have : w.slt 0#32 = false := by
      simp only [BitVec.slt, BitVec.toInt_zero, decide_eq_false_iff_not, not_lt]
      exact h
    simp only [IntOp.cmpi, this]
    rfl
  rw [h0, select_zero]

/-- An index word in [0, 512), read as a signed number, is the column it names. -/
theorem toInt_eq_col (w : BitVec 32) (h0 : 0 ≤ w.toInt) (h1 : w.toInt < 512) :
    w.toInt = ((Cert.Spec.col w).val : Int) := by
  have hn : w.toInt = (w.toNat : Int) := by
    rw [BitVec.toInt_eq_toNat_cond] at h0 ⊢
    split_ifs at h0 ⊢ with hlt
    · rfl
    · have := w.isLt; omega
  show w.toInt = ((w.toNat % 512 : Nat) : Int)
  rw [hn] at h1 ⊢
  have : w.toNat < 512 := by omega
  rw [Nat.mod_eq_of_lt this]

/-! ## The column gather read at an index -/

/-- The gathers' dimension numbers: offset axis 0, operand axis 1 collapsed and start-indexed, slices of one whole column. -/
abbrev gd := gather_S20000x512_S5000x1_S20000x5000_0_1_n_n_1_1_200001

/-- The gather of whole columns: offset axis 0 keeps the row, axis 1 of the operand is collapsed and
    start-indexed, so result element (b, i) is the operand's element in row b at the start index of path i,
    read signed and clamped into [0, 511]. -/
theorem gather_col {α : Type} {w : Nat}
    (x : S20000x512.Idx → α) (idx : IVec S5000x1 w) (b : Fin 20000) (i : Fin 5000) :
    Host.gather gather_S20000x512_S5000x1_S20000x5000_0_1_n_n_1_1_200001 x idx (ix2 b i)
      = x (ix2 b ⟨min (idx (ix2 i 0)).toInt.toNat 511, by omega⟩) := by
  unfold Host.gather
  congr 1
  funext a
  refine Fin.ext ?_
  match a with
  | ⟨0, _⟩ =>
    show gd.start (ix2 b i) idx 0 + gd.batchCoord (ix2 b i) 0 + gd.offCoord (ix2 b i) 0 = b.val
    rw [GatherDims.batchCoord_eq_zero _ _ _ List.not_mem_nil]
    have hs : gd.start (ix2 b i) idx 0 = 0 := by
      unfold GatherDims.start
      rw [dif_neg (by decide)]
    rw [hs]
    have ho : gd.offCoord (ix2 b i) 0 = b.val := by
      unfold GatherDims.offCoord
      rw [dif_pos (by decide)]
      rfl
    rw [ho]
    omega
  | ⟨1, _⟩ =>
    show gd.start (ix2 b i) idx 1 + gd.batchCoord (ix2 b i) 1 + gd.offCoord (ix2 b i) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gd.startIndexMap from List.mem_singleton.mpr rfl)]
    have hsi : gd.siIdx (ix2 b i) ⟨List.idxOf (1 : Fin 2) gd.startIndexMap,
        List.idxOf_lt_length_iff.2 (List.mem_singleton.mpr rfl)⟩ = ix2 i 0 := by
      funext c; refine Fin.ext ?_
      match c with
      | ⟨0, _⟩ => rfl
      | ⟨1, _⟩ => rfl
    rw [hsi]
    rfl

/-- With the start index in range the clamp does nothing: the gather reads the named column. -/
theorem gather_col_inRange {α : Type}
    (x : S20000x512.Idx → α) (idx : IVec S5000x1 32) (b : Fin 20000) (i : Fin 5000)
    (h0 : 0 ≤ (idx (ix2 i 0)).toInt) (h1 : (idx (ix2 i 0)).toInt < 512) :
    Host.gather gather_S20000x512_S5000x1_S20000x5000_0_1_n_n_1_1_200001 x idx (ix2 b i)
      = x (ix2 b (Cert.Spec.col (idx (ix2 i 0)))) := by
  rw [gather_col]
  congr 2
  refine Fin.ext ?_
  have := toInt_eq_col _ h0 h1
  show min (idx (ix2 i 0)).toInt.toNat 511 = (Cert.Spec.col (idx (ix2 i 0))).val
  have hlt := (Cert.Spec.col (idx (ix2 i 0))).isLt
  omega

/-! ## The scatter's result index -/

/-- The scatter's dimension numbers: update window axis 0, operand axis 1 inserted and indexed. -/
abbrev sd := scatter_S20000x512_S5000x1_S20000x5000_0_1_1_1

/-- Operand axis 0 is not named by the scatter's index map: its window starts at 0. -/
theorem sd_start0 {w : Nat} (j : S20000x5000.Idx) (idx : IVec S5000x1 w) : sd.start j idx 0 = 0 := by
  unfold ScatterDims.start
  rw [dif_neg (by decide)]

/-- Operand axis 1 starts at the index word of the update's path, read signed. -/
theorem sd_start1 {w : Nat} (b' : Fin 20000) (i : Fin 5000) (idx : IVec S5000x1 w) :
    sd.start (ix2 b' i) idx 1 = (idx (ix2 i 0)).toInt := by
  unfold ScatterDims.start
  rw [dif_pos (show (1 : Fin 2) ∈ sd.scatterDimsToOperandDims from List.mem_singleton.mpr rfl)]
  have hsi : sd.siIdx (ix2 b' i) ⟨List.idxOf (1 : Fin 2) sd.scatterDimsToOperandDims,
      List.idxOf_lt_length_iff.2 (List.mem_singleton.mpr rfl)⟩ = ix2 i 0 := by
    funext c; refine Fin.ext ?_
    match c with
    | ⟨0, _⟩ => rfl
    | ⟨1, _⟩ => rfl
  rw [hsi]

/-- The update's window axis 0 goes to operand axis 0: the window coordinate there is the update's row. -/
theorem sd_window0 (b' : Fin 20000) (i : Fin 5000) : sd.window (ix2 b' i) 0 = b'.val := by
  unfold ScatterDims.window
  rw [dif_pos (by decide)]
  rfl

/-- Operand axis 1 is an inserted window axis: no window coordinate. -/
theorem sd_window1 (j : S20000x5000.Idx) : sd.window j 1 = 0 := by
  unfold ScatterDims.window
  rw [dif_neg (by decide)]

/-- Update (b', i) lands, when path i's index word is in range, at row b' and the column the word names:
    nothing is dropped. -/
theorem resultIdx_eq {w : Nat} (idx : IVec S5000x1 w) (b' : Fin 20000) (i : Fin 5000)
    (h0 : 0 ≤ (idx (ix2 i 0)).toInt) (h1 : (idx (ix2 i 0)).toInt < 512) :
    sd.resultIdx? (ix2 b' i) idx = some (ix2 b' ⟨(idx (ix2 i 0)).toInt.toNat, by omega⟩) := by
  unfold ScatterDims.resultIdx?
  have hc : ∀ a, 0 ≤ sd.start (ix2 b' i) idx a + sd.window (ix2 b' i) a ∧
      sd.start (ix2 b' i) idx a + sd.window (ix2 b' i) a < S20000x512.size a := by
    intro a
    match a with
    | ⟨0, _⟩ =>
      have e0 : sd.start (ix2 b' i) idx 0 = 0 := sd_start0 _ _
      have e1 : sd.window (ix2 b' i) 0 = b'.val := sd_window0 _ _
      show 0 ≤ sd.start (ix2 b' i) idx 0 + sd.window (ix2 b' i) 0 ∧ sd.start (ix2 b' i) idx 0 + sd.window (ix2 b' i) 0 < (20000 : Nat)
      rw [e0, e1]
      have := b'.isLt
      omega
    | ⟨1, _⟩ =>
      have e0 : sd.start (ix2 b' i) idx 1 = _ := sd_start1 _ _ _
      have e1 : sd.window (ix2 b' i) 1 = 0 := sd_window1 _
      show 0 ≤ sd.start (ix2 b' i) idx 1 + sd.window (ix2 b' i) 1 ∧ sd.start (ix2 b' i) idx 1 + sd.window (ix2 b' i) 1 < (512 : Nat)
      rw [e0, e1]
      omega
  rw [dif_pos hc]
  congr 1
  funext a
  refine Fin.ext ?_
  match a with
  | ⟨0, _⟩ =>
    show (sd.start (ix2 b' i) idx 0 + sd.window (ix2 b' i) 0).toNat = b'.val
    rw [sd_start0, sd_window0]
    omega
  | ⟨1, _⟩ =>
    show (sd.start (ix2 b' i) idx 1 + sd.window (ix2 b' i) 1).toNat = (idx (ix2 i 0)).toInt.toNat
    rw [sd_start1, sd_window1]
    simp

/-- The same with the column spelled as the specification does. -/
theorem resultIdx_eq_col (idx : IVec S5000x1 32) (b' : Fin 20000) (i : Fin 5000)
    (h0 : 0 ≤ (idx (ix2 i 0)).toInt) (h1 : (idx (ix2 i 0)).toInt < 512) :
    sd.resultIdx? (ix2 b' i) idx = some (ix2 b' (Cert.Spec.col (idx (ix2 i 0)))) := by
  rw [resultIdx_eq idx b' i h0 h1]
  congr 2
  refine Fin.ext ?_
  have := toInt_eq_col _ h0 h1
  show (idx (ix2 i 0)).toInt.toNat = (Cert.Spec.col (idx (ix2 i 0))).val
  omega

/-! ## The accumulating scatter read at an index -/

/-- With every index word in range, entry (b, k) of the accumulating scatter is the operand's entry plus the updates
    (b, i) of the paths i whose word names column k: the sum over all 20000 × 5000 updates that land on (b, k) keeps
    row b only, and within it the paths writing k. -/
theorem scatterAdd_apply (x : FVec Ideal S20000x512 .f32) (idx : IVec S5000x1 32) (upd : FVec Ideal S20000x5000 .f32)
    (hidx : ∀ i : Fin 5000, 0 ≤ (idx (ix2 i 0)).toInt ∧ (idx (ix2 i 0)).toInt < 512) (b : Fin 20000) (k : Fin 512) :
    Host.scatterAdd scatter_S20000x512_S5000x1_S20000x5000_0_1_1_1 x idx upd (ix2 b k)
      = x (ix2 b k) + ∑ i : Fin 5000, if (Cert.Spec.col (idx (ix2 i 0))).val = k.val then upd (ix2 b i) else 0 := by
  unfold Host.scatterAdd
  rw [Ideal.hostScatterAdd_def]
  unfold Ideal.hostScatterAdd
  refine congrArg (fun t => x (ix2 b k) + t) ?_
  rw [Finset.sum_filter, sum_idx2, Finset.sum_eq_single b]
  · refine Finset.sum_congr rfl fun i _ => ?_
    rw [resultIdx_eq_col idx b i (hidx i).1 (hidx i).2]
    by_cases hk : (Cert.Spec.col (idx (ix2 i 0))).val = k.val
    · rw [if_pos hk, if_pos]
      rw [Fin.ext hk]
    · rw [if_neg hk, if_neg]
      intro h
      exact hk (congrArg Fin.val (congrFun (Option.some.inj h) 1))
  · intro a _ hab
    refine Finset.sum_eq_zero fun i _ => ?_
    rw [resultIdx_eq_col idx a i (hidx i).1 (hidx i).2, if_neg]
    intro h
    exact hab (congrFun (Option.some.inj h) 0)
  · intro h
    exact absurd (Finset.mem_univ b) h

/-! ## The reference's stages at an index -/

section Stages
open Cert.ReferenceIdeal.Read

/-- The start-index column of the first gather: path i's word of M1, the wrap doing nothing in range. -/
theorem v5_col (x4 : (⟨S5000, .i32⟩ : BufTy).Contents (Elt Ideal)) (h4 : Cert.Spec.InRange x4) (i : Fin 5000) :
    val_main_v5 (F := Ideal) x4 (ix2 i 0) = x4 (ix1 i) := by
  rw [val_main_v5_apply]
  have e : idx_main_v5 (ix2 i (0 : Fin 1)) = ix1 i := by
    funext a
    match a with
    | ⟨0, _⟩ => rfl
  rw [e, val_main_v4_apply, val_main_v1_apply, val_main_v0_apply, val_main_c_apply]
  exact wrap_of_nonneg _ _ (h4 i).1

/-- The start-index column of the second gather: path i's word of M2. -/
theorem v12_col (x5 : (⟨S5000, .i32⟩ : BufTy).Contents (Elt Ideal)) (h5 : Cert.Spec.InRange x5) (i : Fin 5000) :
    val_main_v12 (F := Ideal) x5 (ix2 i 0) = x5 (ix1 i) := by
  rw [val_main_v12_apply]
  have e : idx_main_v12 (ix2 i (0 : Fin 1)) = ix1 i := by
    funext a
    match a with
    | ⟨0, _⟩ => rfl
  rw [e, val_main_v11_apply, val_main_v8_apply, val_main_v7_apply, val_main_c_1_apply]
  exact wrap_of_nonneg _ _ (h5 i).1

/-- The scatter's index column: path i's word of M. -/
theorem v24_col (x3 : (⟨S5000, .i32⟩ : BufTy).Contents (Elt Ideal)) (h3 : Cert.Spec.InRange x3) (i : Fin 5000) :
    val_main_v24 (F := Ideal) x3 (ix2 i 0) = x3 (ix1 i) := by
  rw [val_main_v24_apply]
  have e : idx_main_v24 (ix2 i (0 : Fin 1)) = ix1 i := by
    funext a
    match a with
    | ⟨0, _⟩ => rfl
  rw [e, val_main_v23_apply, val_main_v20_apply, val_main_v19_apply, val_main_c_3_apply]
  exact wrap_of_nonneg _ _ (h3 i).1

/-- The first gather at (b, i): x[b, M1[i]]. -/
theorem v6_apply (x0 : (⟨S20000x512, .f32⟩ : BufTy).Contents (Elt Ideal)) (x4 : (⟨S5000, .i32⟩ : BufTy).Contents (Elt Ideal))
    (h4 : Cert.Spec.InRange x4) (b : Fin 20000) (i : Fin 5000) :
    val_main_v6 (F := Ideal) x0 x4 (ix2 b i) = x0 (ix2 b (Cert.Spec.col (x4 (ix1 i)))) := by
  unfold val_main_v6
  have e := v5_col x4 h4 i
  rw [gather_col_inRange x0 _ b i (by rw [e]; exact (h4 i).1) (by rw [e]; exact (h4 i).2), e]

/-- The second gather at (b, i): y[b, M2[i]]. -/
theorem v13_apply (x1 : (⟨S20000x512, .f32⟩ : BufTy).Contents (Elt Ideal)) (x5 : (⟨S5000, .i32⟩ : BufTy).Contents (Elt Ideal))
    (h5 : Cert.Spec.InRange x5) (b : Fin 20000) (i : Fin 5000) :
    val_main_v13 (F := Ideal) x1 x5 (ix2 b i) = x1 (ix2 b (Cert.Spec.col (x5 (ix1 i)))) := by
  unfold val_main_v13
  have e := v12_col x5 h5 i
  rw [gather_col_inRange x1 _ b i (by rw [e]; exact (h5 i).1) (by rw [e]; exact (h5 i).2), e]

/-- The update (b, i) is path i's contribution to row b. -/
theorem v17_apply (x0 x1 : (⟨S20000x512, .f32⟩ : BufTy).Contents (Elt Ideal)) (x2 : (⟨S5000, .f32⟩ : BufTy).Contents (Elt Ideal))
    (x4 x5 : (⟨S5000, .i32⟩ : BufTy).Contents (Elt Ideal)) (h4 : Cert.Spec.InRange x4) (h5 : Cert.Spec.InRange x5)
    (b : Fin 20000) (i : Fin 5000) :
    val_main_v17 (F := Ideal) x0 x1 x2 x4 x5 (ix2 b i) = Cert.Spec.term x0 x1 x2 x4 x5 b i := by
  rw [val_main_v17_apply, val_main_v14_apply, val_main_v16_apply, val_main_v15_apply, v6_apply x0 x4 h4, v13_apply x1 x5 h5]
  have e : idx_main_v15 (idx_main_v16 (ix2 b i)) = ix1 i := by
    funext a
    match a with
    | ⟨0, _⟩ => rfl
  rw [e]
  rfl

end Stages

/-! ## The reference is the specification -/

open Cert.ReferenceIdeal Cert.ReferenceIdeal.Gen Cert.ReferenceIdeal.Read in
/-- Under the index-range precondition the reference's result is G: the zero operand plus, at (b, k), the updates of the
    paths writing k, each update the path's contribution. -/
theorem ref_eq_G (x0 x1 : (⟨S20000x512, .f32⟩ : BufTy).Contents (Elt Ideal)) (x2 : (⟨S5000, .f32⟩ : BufTy).Contents (Elt Ideal))
    (x3 x4 x5 : (⟨S5000, .i32⟩ : BufTy).Contents (Elt Ideal))
    (h3 : Cert.Spec.InRange x3) (h4 : Cert.Spec.InRange x4) (h5 : Cert.Spec.InRange x5) :
    Read.val_main_v25 (F := Ideal) x0 x1 x2 x3 x4 x5 = Cert.Spec.G x0 x1 x2 x3 x4 x5 := by
  funext p
  obtain ⟨b, k, rfl⟩ : ∃ b k, p = ix2 b k := ⟨p 0, p 1, eq_ix2 p⟩
  have hidx : ∀ i : Fin 5000, 0 ≤ (val_main_v24 (F := Ideal) x3 (ix2 i 0)).toInt ∧
      (val_main_v24 (F := Ideal) x3 (ix2 i 0)).toInt < 512 := by
    intro i
    rw [v24_col x3 h3 i]
    exact h3 i
  unfold Read.val_main_v25
  have hz : FloatOps.ofBits (F := Ideal) .f32 0x00000000#32 = 0 := Ideal.ofBits_zero_f32
  rw [scatterAdd_apply _ _ _ hidx b k, val_main_v18_apply, val_main_cst_apply, hz, zero_add]
  unfold Cert.Spec.G
  refine Finset.sum_congr rfl fun i _ => ?_
  rw [v24_col x3 h3 i, v17_apply x0 x1 x2 x4 x5 h4 h5 b i]

end Cert.ReferenceIdeal.RefValue
end
-- ==== Proof.PreRange.lean ====
/-
  The index ranges, read out of the printed precondition.

  The precondition is a conjunction of rank-0 truth values. Three of them say the float arrays are finite and are not
  needed here. The other three say, each for one of the three per-path index arrays M, that every word M[i] satisfies
  0 ≤ M[i] and M[i] < 512 as signed numbers: the array is compared elementwise with the constant 0 and with the
  constant 512 (each a scalar laid out over the 5000 positions), the two masks are and-ed, and the conjunction over all
  5000 positions is taken by a reduction with "and" from the constant true.

  A reduction by "and" that comes out true met only true elements; an "and" of two one-bit words is true exactly when
  both are; a signed comparison of words is the comparison of their signed values; and a scalar laid out over a vector
  reads the scalar at every position. Together: the precondition being true gives 0 ≤ M[i] < 512 for every path i.
-/
import proofs.«420083_j7232724927034_3_alg».proof.Proof.Gen.Pre_finite_inputs
import proofs.«420083_j7232724927034_3_alg».proof.Proof.Spec
import Idealize.ShloMosaic.Lib.ReduceAll
import Idealize.ShloMosaic.Lib.StableHlo.Predicate
import Idealize.ShloMosaic.Lib.ValueIdx

noncomputable section

namespace Cert.Pre_finite_inputs.Range

open Cert.Pre_finite_inputs Idealize.ShloMosaic Idealize.ShloMosaic.ValueIdx

/-- The rank-0 shape has exactly one index. -/
instance subsingleton_S_ : Subsingleton S_.Idx := ⟨fun a b => funext fun d => d.elim0⟩

/-- An "and" of two rank-0 truth values is true exactly when both are. -/
theorem andi_ix0 (x y : IVec S_ 1) : andi x y ix0 = 1#1 ↔ x ix0 = 1#1 ∧ y ix0 = 1#1 := by
  show IntOp.andi (x ix0) (y ix0) = 1#1 ↔ _
  exact IntOp.andi_eq_one

/-- One range conjunct decoded: if "all (M ≥ 0 and M < 512)" is true then every word of M lies in [0, 512). -/
theorem inRange_of_all [Facts] (M : IVec S5000 32) (init : IVec S_ 1)
    (h : Host.reduce IntOp.andi
          (andi (cmpi .sge M (broadcastInDim S5000 ![] Facts.bcast_S_S5000 (constantI S_ 32 0#32)))
                (cmpi .slt M (broadcastInDim S5000 ![] Facts.bcast_S_S5000 (constantI S_ 32 512#32))))
          init Facts.reducesTo_S5000_S_d0 Facts.h_S_ ix0 = 1#1) :
    Cert.Spec.InRange M := by
  intro i
  -- the element of the mask at position i is true
  have e := Host.reduce_andi_all _ init Facts.reducesTo_S5000_S_d0 Facts.h_S_ ix0 h (ix1 i)
  -- at one position the mask is the "and" of the two word comparisons against the constants
  have e' : IntOp.andi (IntOp.cmpi .sge (M (ix1 i)) 0#32) (IntOp.cmpi .slt (M (ix1 i)) 512#32) = 1#1 := e
  obtain ⟨h0, h1⟩ := IntOp.andi_eq_one.1 e'
  rw [IntOp.cmpi_sge] at h0
  rw [IntOp.cmpi_slt] at h1
  have z0 : (0#32 : BitVec 32).toInt = 0 := by decide
  have z1 : (512#32 : BitVec 32).toInt = 512 := by decide
  rw [z0] at h0
  rw [z1] at h1
  exact ⟨h0, h1⟩

open Cert.Pre_finite_inputs Idealize.ShloMosaic in
/-- The precondition gives the three index ranges. -/
theorem ranges_of_pre (a0 a1 : FVec Ideal S20000x512 .f32) (a2 : FVec Ideal S5000 .f32) (a3 a4 a5 : IVec S5000 32)
    (h : Cert.Pre_finite_inputs.fn (F := Ideal) a0 a1 a2 a3 a4 a5 = fun _ => 1#1) :
    Cert.Spec.InRange a3 ∧ Cert.Spec.InRange a4 ∧ Cert.Spec.InRange a5 := by
  have h0 := congrFun h ix0
  dsimp only [fn, fn_part1, fn_part2] at h0
  -- the conjunction, split: ((((floats) ∧ range M) ∧ range M1) ∧ range M2)
  simp only [andi_ix0] at h0
  obtain ⟨⟨⟨-, h3⟩, h4⟩, h5⟩ := h0
  exact ⟨inRange_of_all a3 _ h3, inRange_of_all a4 _ h4, inRange_of_all a5 _ h5⟩

end Cert.Pre_finite_inputs.Range

end
-- ==== Proof.lean ====
/-
  The certificate of the one-hot matmul kernel against the gather / scatter-add reference.

  out[b, k] = the sum over the 5000 paths i with M[i] = k of x[b, M1[i]] * y[b, M2[i]] * scale[i], for index arrays
  whose words name feature columns (0 ≤ M, M1, M2 < 512; outside that range the reference wraps or clamps an index
  where the kernel's selectors drop the path, so the range is part of the precondition).

  * The three frames: the word-level kernel by its body run with the result's window forgotten; the idealized kernel
    by the run that also names its result; the reference by its run.
  * The idealization rewrote nothing, so there is nothing to preserve.
  * At the exact values both results are the one specified function of the six argument arrays: the kernel's result
    tile by tile (each row's accumulation over the eight chunks of the three selectors is the specified sum), the
    reference's by reading its gathers and its scatter-add at an index.  No finiteness is used.
-/
import proofs.«420083_j7232724927034_3_alg».proof.Defs
import proofs.«420083_j7232724927034_3_alg».proof.Proof.Gen.Kernel
import proofs.«420083_j7232724927034_3_alg».proof.Proof.Gen.KernelIdeal
import proofs.«420083_j7232724927034_3_alg».proof.Proof.Gen.ReferenceIdeal
import proofs.«420083_j7232724927034_3_alg».proof.Proof.Gen.Pre_finite_inputs
import proofs.«420083_j7232724927034_3_alg».proof.Proof.BodyBits
import proofs.«420083_j7232724927034_3_alg».proof.Proof.KernelValue
import proofs.«420083_j7232724927034_3_alg».proof.Proof.RefValue
import proofs.«420083_j7232724927034_3_alg».proof.Proof.PreRange
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Body.frame (F := Bits) m ρ

/-- So does the idealized kernel (its run, the result dropped). -/
theorem frame_ki : Cert.frame_KernelIdeal := fun m ρ _ =>
  (θ_run Cert.KernelIdeal.defs _ _).mono (fun _ h c => (h c).2) (Cert.KernelIdeal.KValue.run m ρ)

/-- And the reference (its run, the result dropped). -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, with the index arrays in range, both programs end holding the
    specified function of the arguments. -/
theorem algebraic : Cert.algebraic_KernelIdeal_ReferenceIdeal := by
  intro m ρ m' ρ' hpre hagree
  have hR : ∀ c, Cert.KernelIdeal.KValue.Ranges m c := fun c =>
    Cert.Pre_finite_inputs.Range.ranges_of_pre _ _ _ _ _ _ (hpre c)
  refine ⟨fun c => Cert.KernelIdeal.KValue.Gc m c, ?_, ?_⟩
  · exact (θ_run Cert.KernelIdeal.defs _ _).mono
      (fun _ h c => ⟨(h c).1.trans (Cert.KernelIdeal.KValue.final m c (hR c)), (h c).2⟩) (Cert.KernelIdeal.KValue.run m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5⟩ := hagree c
    rw [Cert.ReferenceIdeal.Read.val_main_v25_eq, a0, a1, a2, a3, a4, a5]
    exact Cert.ReferenceIdeal.RefValue.ref_eq_G _ _ _ _ _ _ (hR c).1 (hR c).2.1 (hR c).2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
